-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40962x256 : Shape := ⟨2, ![40962, 256]⟩
abbrev S122880x2 : Shape := ⟨2, ![122880, 2]⟩
abbrev S256x256 : Shape := ⟨2, ![256, 256]⟩
abbrev S256 : Shape := ⟨1, ![256]⟩
abbrev S_ : Shape := ⟨0, ![]⟩

class Facts : Prop where
  bcast_S_S40962x256 : S_.BroadcastsInDim S40962x256 (![] : Fin 0 → Fin S40962x256.rank)
  reducesTo_S40962x256_S_d0_1 : S40962x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S122880x2 : S_.BroadcastsInDim S122880x2 (![] : Fin 0 → Fin S122880x2.rank)
  reducesTo_S122880x2_S_d0_1 : S122880x2.ReducesTo [0, 1] S_

variable [Facts]

def fn_part1 {F : FTy → Type} [FloatOps F] (main_arg1 : IVec S122880x2 32) (main_v13 : IVec S_ 1) (main_v15 : IVec S122880x2 1) (main_c_5 : IVec S_ 32) : IVec S_ 1 :=
  let main_v16 : IVec S122880x2 32 := broadcastInDim S122880x2 ![] bcast_S_S122880x2 main_c_5
  let main_v17 : IVec S122880x2 1 := cmpi .slt main_arg1 main_v16
  let main_v18 : IVec S122880x2 1 := andi main_v15 main_v17
  let main_c_6 : IVec S_ 1 := constantI S_ 1 1#1
  let main_v19 : IVec S_ 1 := (fun x v => Host.reduce IntOp.andi x v reducesTo_S122880x2_S_d0_1 h_S_) main_v18 main_c_6
  let main_v20 : IVec S_ 1 := andi main_v13 main_v19
  main_v20

def fn {F : FTy → Type} [FloatOps F] (main_arg0 : FVec F S40962x256 .f32) (main_arg1 : IVec S122880x2 32) (main_arg2 : FVec F S256x256 .f32) (main_arg3 : FVec F S256 .f32) : IVec S_ 1 :=
  let main_v0 : FVec F S40962x256 .f32 := Host.absf main_arg0
  let main_cst : FVec F S_ .f32 := constant S_ .f32 0x7F800000#32
  let main_v1 : FVec F S40962x256 .f32 := broadcastInDim S40962x256 ![] bcast_S_S40962x256 main_cst
  let main_v2 : IVec S40962x256 1 := cmpf .olt main_v0 main_v1
  let main_c : IVec S_ 1 := constantI S_ 1 1#1
  let main_v3 : IVec S_ 1 := (fun x v => Host.reduce IntOp.andi x v reducesTo_S40962x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S122880x2 32 := broadcastInDim S122880x2 ![] bcast_S_S122880x2 main_c_4
  let main_v15 : IVec S122880x2 1 := cmpi .sge main_arg1 main_v14
  let main_c_5 : IVec S_ 32 := constantI S_ 32 40962#32
  fn_part1 (F := F) main_arg1 main_v13 main_v15 main_c_5
-- ==== Kernel.lean ====
abbrev S40962x256 : Shape := ⟨2, ![40962, 256]⟩
abbrev S122880x2 : Shape := ⟨2, ![122880, 2]⟩
abbrev S256x256 : Shape := ⟨2, ![256, 256]⟩
abbrev S256 : Shape := ⟨1, ![256]⟩
abbrev S122880x1 : Shape := ⟨2, ![122880, 1]⟩
abbrev S122880 : Shape := ⟨1, ![122880]⟩
abbrev S1x256 : Shape := ⟨2, ![1, 256]⟩
abbrev S4096x256 : Shape := ⟨2, ![4096, 256]⟩
abbrev S40962 : Shape := ⟨1, ![40962]⟩
abbrev S163842 : Shape := ⟨1, ![163842]⟩
abbrev S_ : Shape := ⟨0, ![]⟩
abbrev S163842x1 : Shape := ⟨2, ![163842, 1]⟩
abbrev S1 : Shape := ⟨1, ![1]⟩
abbrev S1x1 : Shape := ⟨2, ![1, 1]⟩
abbrev S163842x256 : Shape := ⟨2, ![163842, 256]⟩

abbrev nBuf : Space → Nat
  | .hbm => 65
  | .vmem => 6
  | .smem => 0
  | _ => 0

abbrev bufTy : (tb : Table) → Fin (tcTables nBuf tb) → BufTy
  | .hbm, ⟨0, _⟩ => ⟨S40962x256, .f32⟩
  | .hbm, ⟨1, _⟩ => ⟨S122880x2, .i32⟩
  | .hbm, ⟨2, _⟩ => ⟨S256x256, .f32⟩
  | .hbm, ⟨3, _⟩ => ⟨S256, .f32⟩
  | .hbm, ⟨4, _⟩ => ⟨S122880x1, .i32⟩
  | .hbm, ⟨5, _⟩ => ⟨S122880, .i32⟩
  | .hbm, ⟨6, _⟩ => ⟨S122880x1, .i32⟩
  | .hbm, ⟨7, _⟩ => ⟨S122880, .i32⟩
  | .hbm, ⟨8, _⟩ => ⟨S256x256, .f32⟩
  | .hbm, ⟨9, _⟩ => ⟨S256x256, .bf16⟩
  | .hbm, ⟨10, _⟩ => ⟨S1x256, .f32⟩
  | .hbm, ⟨11, _⟩ => ⟨S40962x256, .f32⟩
  | .hbm, ⟨12, _⟩ => ⟨S40962, .i32⟩
  | .hbm, ⟨13, _⟩ => ⟨S163842, .i32⟩
  | .hbm, ⟨14, _⟩ => ⟨S163842, .i32⟩
  | .hbm, ⟨15, _⟩ => ⟨S_, .i32⟩
  | .hbm, ⟨16, _⟩ => ⟨S163842, .i32⟩
  | .hbm, ⟨17, _⟩ => ⟨S163842, .i1⟩
  | .hbm, ⟨18, _⟩ => ⟨S_, .i32⟩
  | .hbm, ⟨19, _⟩ => ⟨S163842, .i32⟩
  | .hbm, ⟨20, _⟩ => ⟨S163842, .i32⟩
  | .hbm, ⟨21, _⟩ => ⟨S163842, .i32⟩
  | .hbm, ⟨22, _⟩ => ⟨S163842x1, .i32⟩
  | .hbm, ⟨23, _⟩ => ⟨S1, .i32⟩
  | .hbm, ⟨24, _⟩ => ⟨S_, .i32⟩
  | .hbm, ⟨25, _⟩ => ⟨S163842x1, .i32⟩
  | .hbm, ⟨26, _⟩ => ⟨S163842x1, .i1⟩
  | .hbm, ⟨27, _⟩ => ⟨S1x1, .i32⟩
  | .hbm, ⟨28, _⟩ => ⟨S163842x1, .i32⟩
  | .hbm, ⟨29, _⟩ => ⟨S163842x1, .i1⟩
  | .hbm, ⟨30, _⟩ => ⟨S163842x1, .i1⟩
  | .hbm, ⟨31, _⟩ => ⟨S_, .i1⟩
  | .hbm, ⟨32, _⟩ => ⟨S163842, .i1⟩
  | .hbm, ⟨33, _⟩ => ⟨S163842x256, .f32⟩
  | .hbm, ⟨34, _⟩ => ⟨S163842x256, .i1⟩
  | .hbm, ⟨35, _⟩ => ⟨S_, .f32⟩
  | .hbm, ⟨36, _⟩ => ⟨S163842x256, .f32⟩
  | .hbm, ⟨37, _⟩ => ⟨S163842x256, .f32⟩
  | .hbm, ⟨38, _⟩ => ⟨S_, .i32⟩
  | .hbm, ⟨39, _⟩ => ⟨S163842, .i32⟩
  | .hbm, ⟨40, _⟩ => ⟨S163842, .i1⟩
  | .hbm, ⟨41, _⟩ => ⟨S_, .i32⟩
  | .hbm, ⟨42, _⟩ => ⟨S163842, .i32⟩
  | .hbm, ⟨43, _⟩ => ⟨S163842, .i32⟩
  | .hbm, ⟨44, _⟩ => ⟨S163842, .i32⟩
  | .hbm, ⟨45, _⟩ => ⟨S163842x1, .i32⟩
  | .hbm, ⟨46, _⟩ => ⟨S1, .i32⟩
  | .hbm, ⟨47, _⟩ => ⟨S_, .i32⟩
  | .hbm, ⟨48, _⟩ => ⟨S163842x1, .i32⟩
  | .hbm, ⟨49, _⟩ => ⟨S163842x1, .i1⟩
  | .hbm, ⟨50, _⟩ => ⟨S1x1, .i32⟩
  | .hbm, ⟨51, _⟩ => ⟨S163842x1, .i32⟩
  | .hbm, ⟨52, _⟩ => ⟨S163842x1, .i1⟩
  | .hbm, ⟨53, _⟩ => ⟨S163842x1, .i1⟩
  | .hbm, ⟨54, _⟩ => ⟨S_, .i1⟩
  | .hbm, ⟨55, _⟩ => ⟨S163842, .i1⟩
  | .hbm, ⟨56, _⟩ => ⟨S163842x256, .f32⟩
  | .hbm, ⟨57, _⟩ => ⟨S163842x256, .i1⟩
  | .hbm, ⟨58, _⟩ => ⟨S_, .f32⟩
  | .hbm, ⟨59, _⟩ => ⟨S163842x256, .f32⟩
  | .hbm, ⟨60, _⟩ => ⟨S163842x256, .f32⟩
  | .hbm, ⟨61, _⟩ => ⟨S163842x256, .f32⟩
  | .hbm, ⟨62, _⟩ => ⟨S_, .f32⟩
  | .hbm, ⟨63, _⟩ => ⟨S163842x256, .f32⟩
  | .hbm, ⟨64, _⟩ => ⟨S163842x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S40962x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v11 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v12 : Ref sig .tc := ⟨.hbm, 60, rfl⟩
abbrev main_v13 : Ref sig .tc := ⟨.hbm, 61, rfl⟩
abbrev main_cst : Ref sig .tc := ⟨.hbm, 62, rfl⟩
abbrev main_v14 : Ref sig .tc := ⟨.hbm, 63, rfl⟩
abbrev main_v15 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S122880x2_S122880x1_0_0 : S122880x2.Slices ![0, 0] S122880x1
  shapeCasts_S122880x1_S122880 : S122880x1.ShapeCasts S122880
  slices_S122880x2_S122880x1_0_1 : S122880x2.Slices ![0, 1] S122880x1
  transposes_S256x256_S256x256_1_0 : S256x256.Transposes [1, 0] S256x256
  bitsLt_bf16_f32 : FTy.bits .bf16 < FTy.bits .f32
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  concatenates_S40962_S122880_S163842_d0 : Shape.Concatenates [S40962, S122880] S163842 0
  bcast_S_S163842 : S_.BroadcastsInDim S163842 (![] : Fin 0 → Fin S163842.rank)
  bcast_S163842_S163842x1_0 : S163842.BroadcastsInDim S163842x1 (![0] : Fin 1 → Fin S163842x1.rank)
  bcast_S_S163842x1 : S_.BroadcastsInDim S163842x1 (![] : Fin 0 → Fin S163842x1.rank)
  bcast_S1_S1x1_1 : S1.BroadcastsInDim S1x1 (![1] : Fin 1 → Fin S1x1.rank)
  bcast_S1x1_S163842x1_0_1 : S1x1.BroadcastsInDim S163842x1 (![0, 1] : Fin 2 → Fin S163842x1.rank)
  reducesTo_S163842x1_S163842_d1 : S163842x1.ReducesTo [1] S163842
  h_S_ : 0 < S_.numel
  bcast_S163842_S163842x256_0 : S163842.BroadcastsInDim S163842x256 (![0] : Fin 1 → Fin S163842x256.rank)
  bcast_S_S163842x256 : S_.BroadcastsInDim S163842x256 (![] : Fin 0 → Fin S163842x256.rank)
  dot_S4096x256_S256x256_S4096x256_1_0_0_1_n_n_wf : DotDims.WF S4096x256 S256x256 S4096x256 [1] [0] [0] [1] [] []
  gather_S40962x256_S163842x1_S163842x256_1_0_n_n_0_1_1256_wf : GatherDims.WF S40962x256 S163842x1 S163842x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S40962x256.size a
  hwx0_0 : ∀ i : grid0.Coords, EltTy.bits .f32 = 32 ∨ (Rect.unit (s := S40962x256) (fun a => cc0_transform_0 i a * S4096x256.size a) (fun a => (Pipeline.Clip.of (cc0_transform_0 i a) (S4096x256.size a) (S40962x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S40962x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x256.size a < S40962x256.size a
  hwx0_3 : ∀ i : grid0.Coords, EltTy.bits .f32 = 32 ∨ (Rect.unit (s := S40962x256) (fun a => cc0_transform_3 i a * S4096x256.size a) (fun a => (Pipeline.Clip.of (cc0_transform_3 i a) (S4096x256.size a) (S40962x256.size a)).extent (S4096x256.size a)) fun a => Pipeline.Clip.inb (Pipeline.Clip.ok_of (hstart0_3 i a))).WholeWords (EltTy.packing .f32)
  hwxs0_3 : ∀ i : grid0.Coords, EltTy.bits .f32 = 32 ∨ (Rect.unit (s := S4096x256) (fun _ => 0) (fun a => (Pipeline.Clip.of (cc0_transform_3 i a) (S4096x256.size a) (S40962x256.size a)).extent (S4096x256.size a)) fun a => (Nat.zero_add _).trans_le (Pipeline.Clip.extent_le (Pipeline.Clip.ok_of (hstart0_3 i a)))).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S40962x256_S163842x1_S163842x256_1_0_n_n_0_1_1256 : GatherDims S40962x256 S163842x1 S163842x256 where
  offsetDims := [1]
  collapsedSliceDims := [0]
  operandBatchingDims := []
  startIndicesBatchingDims := []
  startIndexMap := [0]
  indexVectorDim := 1
  sliceSizes := ![1, 256]
  wf := gather_S40962x256_S163842x1_S163842x256_1_0_n_n_0_1_1256_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v7) S4096x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S40962x256 : Shape := ⟨2, ![40962, 256]⟩
abbrev S122880x2 : Shape := ⟨2, ![122880, 2]⟩
abbrev S256x256 : Shape := ⟨2, ![256, 256]⟩
abbrev S256 : Shape := ⟨1, ![256]⟩
abbrev S122880x1 : Shape := ⟨2, ![122880, 1]⟩
abbrev S122880 : Shape := ⟨1, ![122880]⟩
abbrev S_ : Shape := ⟨0, ![]⟩
abbrev S122880x256 : Shape := ⟨2, ![122880, 256]⟩
abbrev S163842x256 : Shape := ⟨2, ![163842, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S40962x256, .f32⟩
  | .hbm, ⟨1, _⟩ => ⟨S122880x2, .i32⟩
  | .hbm, ⟨2, _⟩ => ⟨S256x256, .f32⟩
  | .hbm, ⟨3, _⟩ => ⟨S256, .f32⟩
  | .hbm, ⟨4, _⟩ => ⟨S122880x1, .i32⟩
  | .hbm, ⟨5, _⟩ => ⟨S122880, .i32⟩
  | .hbm, ⟨6, _⟩ => ⟨S_, .i32⟩
  | .hbm, ⟨7, _⟩ => ⟨S122880, .i32⟩
  | .hbm, ⟨8, _⟩ => ⟨S122880, .i1⟩
  | .hbm, ⟨9, _⟩ => ⟨S_, .i32⟩
  | .hbm, ⟨10, _⟩ => ⟨S122880, .i32⟩
  | .hbm, ⟨11, _⟩ => ⟨S122880, .i32⟩
  | .hbm, ⟨12, _⟩ => ⟨S122880, .i32⟩
  | .hbm, ⟨13, _⟩ => ⟨S122880x1, .i32⟩
  | .hbm, ⟨14, _⟩ => ⟨S122880x256, .f32⟩
  | .hbm, ⟨15, _⟩ => ⟨S122880x1, .i32⟩
  | .hbm, ⟨16, _⟩ => ⟨S122880, .i32⟩
  | .hbm, ⟨17, _⟩ => ⟨S_, .i32⟩
  | .hbm, ⟨18, _⟩ => ⟨S122880, .i32⟩
  | .hbm, ⟨19, _⟩ => ⟨S122880, .i1⟩
  | .hbm, ⟨20, _⟩ => ⟨S_, .i32⟩
  | .hbm, ⟨21, _⟩ => ⟨S122880, .i32⟩
  | .hbm, ⟨22, _⟩ => ⟨S122880, .i32⟩
  | .hbm, ⟨23, _⟩ => ⟨S122880, .i32⟩
  | .hbm, ⟨24, _⟩ => ⟨S122880x1, .i32⟩
  | .hbm, ⟨25, _⟩ => ⟨S122880x256, .f32⟩
  | .hbm, ⟨26, _⟩ => ⟨S122880x256, .f32⟩
  | .hbm, ⟨27, _⟩ => ⟨S_, .f32⟩
  | .hbm, ⟨28, _⟩ => ⟨S122880x256, .f32⟩
  | .hbm, ⟨29, _⟩ => ⟨S122880x256, .f32⟩
  | .hbm, ⟨30, _⟩ => ⟨S163842x256, .f32⟩
  | .hbm, ⟨31, _⟩ => ⟨S256x256, .f32⟩
  | .hbm, ⟨32, _⟩ => ⟨S163842x256, .f32⟩
  | .hbm, ⟨33, _⟩ => ⟨S1x256, .f32⟩
  | .hbm, ⟨34, _⟩ => ⟨S163842x256, .f32⟩
  | .hbm, ⟨35, _⟩ => ⟨S163842x256, .f32⟩
  | _, _ => ⟨S40962x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  slices_S122880x2_S122880x1_0_0 : S122880x2.Slices ![0, 0] S122880x1
  shapeCasts_S122880x1_S122880 : S122880x1.ShapeCasts S122880
  bcast_S_S122880 : S_.BroadcastsInDim S122880 (![] : Fin 0 → Fin S122880.rank)
  bcast_S122880_S122880x1_0 : S122880.BroadcastsInDim S122880x1 (![0] : Fin 1 → Fin S122880x1.rank)
  slices_S122880x2_S122880x1_0_1 : S122880x2.Slices ![0, 1] S122880x1
  bcast_S_S122880x256 : S_.BroadcastsInDim S122880x256 (![] : Fin 0 → Fin S122880x256.rank)
  concatenates_S40962x256_S122880x256_S163842x256_d0 : Shape.Concatenates [S40962x256, S122880x256] S163842x256 0
  transposes_S256x256_S256x256_1_0 : S256x256.Transposes [1, 0] S256x256
  bcast_S256_S1x256_1 : S256.BroadcastsInDim S1x256 (![1] : Fin 1 → Fin S1x256.rank)
  bcast_S1x256_S163842x256_0_1 : S1x256.BroadcastsInDim S163842x256 (![0, 1] : Fin 2 → Fin S163842x256.rank)
  gather_S40962x256_S122880x1_S122880x256_1_0_n_n_0_1_1256_wf : GatherDims.WF S40962x256 S122880x1 S122880x256 [1] [0] [] [0] [] 1 ![1, 256]
  dot_S163842x256_S256x256_S163842x256_1_0_0_1_n_n_wf : DotDims.WF S163842x256 S256x256 S163842x256 [1] [0] [0] [1] [] []

variable [Facts₀]

def gather_S40962x256_S122880x1_S122880x256_1_0_n_n_0_1_1256 : GatherDims S40962x256 S122880x1 S122880x256 where
  offsetDims := [1]
  collapsedSliceDims := [0]
  operandBatchingDims := []
  startIndicesBatchingDims := []
  startIndexMap := [0]
  indexVectorDim := 1
  sliceSizes := ![1, 256]
  wf := gather_S40962x256_S122880x1_S122880x256_1_0_n_n_0_1_1256_wf
def dot_S163842x256_S256x256_S163842x256_1_0_0_1_n_n : DotDims S163842x256 S256x256 S163842x256 where
  lhsContracting := [1]
  rhsContracting := [0]
  lhsNonContracting := [0]
  rhsNonContracting := [1]
  lhsBatch := []
  rhsBatch := []
  wf := dot_S163842x256_S256x256_S163842x256_1_0_0_1_n_n_wf

class Facts : Prop extends Facts₀ where

variable [Facts]
-- ==== Proof.KernelFrame.lean ====
/-
  The frame of the word-level program: @main runs (terminates, nothing faulting) and its four argument arrays end
  as launched.

  The one region is a pipeline of four windows over a grid of eleven points. Windows 0 (the rows of x) and 3 (the
  rows of the result) are cut at the last point: 40962 = 10 * 4096 + 2, so there the staging buffer of window 0
  holds two rows of x and 4094 rows nothing names, and the body writes the product of that whole buffer into the
  staging buffer of window 3. The product is an abstract function of its whole operands, so nothing closed can be
  said of what the body leaves there; nor need it be, for a claim that reads no result. The proof data is therefore
  RELATIONAL: of windows 0 and 3 it says nothing of what the body leaves (window 0 is fetched afresh at every point,
  window 3 is written back at every point), of windows 1 and 2 (fetched at the first point only and read again at
  every later one) that the body leaves them as it found them. An input array is never written by the pipeline, so
  it ends at its entry contents; the lines after the region write their own result buffers only.
-/
import proofs.«413938_j38654705664296_3_alg».proof.Proof.Gen.Kernel.Skeleton
import proofs.«413938_j38654705664296_3_alg».proof.Proof.Gen.Kernel.Launch
import proofs.«413938_j38654705664296_3_alg».proof.Proof.Gen.Kernel.Points
import proofs.«413938_j38654705664296_3_alg».proof.Proof.Gen.Kernel.Frame
import proofs.«413938_j38654705664296_3_alg».proof.Defs
import proofs.«413938_j38654705664296_3_alg».proof.Proof.Gen.Pre_finite_inputs
import Idealize.ShloMosaic.Lib.Pipeline.FrameSuffix
import Idealize.ShloMosaic.Lib.Tactic

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on four whole staging memrefs at ANY contents `x0 x1 x2 x3` runs to a continuation that holds
    the first three as they were and the fourth at some contents: it loads all four and stores once, into the
    fourth. -/
theorem sound_kernel (c : Dev nD) (E : Set ℕ) (i : grid0.Coords)
    (arg1 : Memref sig .tc .vmem S4096x256 .f32) (harg1 : arg1.IsWhole)
    (arg2 : Memref sig .tc .vmem S256x256 .bf16) (harg2 : arg2.IsWhole)
    (arg3 : Memref sig .tc .vmem S1x256 .f32) (harg3 : arg3.IsWhole)
    (arg4 : Memref sig .tc .vmem S4096x256 .f32) (harg4 : arg4.IsWhole)
    (x0 : Vec F S4096x256 .f32) (x1 : Vec F S256x256 .bf16) (x2 : Vec F S1x256 .f32) (x3 : Vec F S4096x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (iprop(owns (c : Thread nD τ) arg1 fullShare x0 ∗ owns (c : Thread nD τ) arg2 fullShare x1
            ∗ owns (c : Thread nD τ) arg3 fullShare x2 ∗ (∃ d, owns (c : Thread nD τ) arg4 fullShare d)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipeline's proof data -/

/-- The relational proof data of the one pipeline on core `c`: the arrays as the region finds them; of windows 0 and
    3 nothing is said of what the body leaves, windows 1 and 2 it leaves as found; the invariant the class's; nothing
    owed; full shares. -/
def rdat (c : Dev nD) : RDat τ (Elt F) Unit ℕ (UR sig nD τ) ℕ cfg0 c where
  A w := V m c (Pipeline.arrRef spec0 w)
  after w _ := match w with
    | ⟨0, _⟩ => fun _ _ => True
    | ⟨1, _⟩ => fun Y X => X = Y
    | ⟨2, _⟩ => fun Y X => X = Y
    | ⟨3, _⟩ => fun _ _ => True
  Φ _ := Pipeline.ΦA spec0 c
  q _ := fullShare
  owed _ := 0

/-- The proof data's arrays are the region-entry contents (the definition projected, the entry contents never
    unfolded). -/
theorem A_eq (c : Dev nD) (w : Fin cfg0.W) : (rdat m c).A w = V m c (Pipeline.arrRef spec0 w) := by
  dsimp only [rdat]

theorem after0_0 (c : Dev nD) (t : Fin cfg0.N) (Y X) : (rdat m c).after 0 t Y X = True := by dsimp only [rdat]
theorem after0_1 (c : Dev nD) (t : Fin cfg0.N) (Y X) : (rdat m c).after 1 t Y X = (X = Y) := by dsimp only [rdat]
theorem after0_2 (c : Dev nD) (t : Fin cfg0.N) (Y X) : (rdat m c).after 2 t Y X = (X = Y) := by dsimp only [rdat]
theorem after0_3 (c : Dev nD) (t : Fin cfg0.N) (Y X) : (rdat m c).after 3 t Y X = True := by dsimp only [rdat]

/-! ## The body obligation, at a generic point -/

/-- The body at any point, from the four current staging buffers at any contents `Y`: the invariant and what the
    core owes pass through unread; the first three buffers come back as handed over, the fourth at some contents. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X)
          ∗ (∃ X, ⌜(rdat m c).after 3 t (Y 3) X⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  simp only [after0_0, after0_1, after0_2, after0_3]
  iintro ⟨HΦ, Ho, H0, H1, H2, H3⟩
  iapply (sound_kernel c Set.univ (grid0.coords t) _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, ⟨%d, H3⟩⟩
  isplitl [HΦ]; · iexact HΦ
  isplitl [Ho]; · iexact Ho
  isplitl [H0]
  · iexists (Y 0); isplitr; · ipureintro; trivial
    iexact H0
  isplitl [H1]
  · iexists (Y 1); isplitr; · ipureintro; rfl
    iexact H1
  isplitl [H2]
  · iexists (Y 2); isplitr; · ipureintro; rfl
    iexact H2
  iexists d; isplitr; · ipureintro; trivial
  iexact H3

/-- The library's relational body obligation, at every point and all contents handed over. -/
theorem body_obligation (c : Dev nD) : (rdat (F := F) m c).BodyObligation (defs₀ (F := F)) Variants.none () Set.univ := fun t Y _ => by
  rw [bigSep_W0, bigSep_W0]
  exact sound_body m c t Y

/-! ## The lines after the region -/

/-- Every unscoped buffer but the last three arguments: the buffers the lines after the region may write. -/
def T : Finset (Ref sig .tc) := Finset.univ.filter fun b => b ≠ main_arg1 ∧ b ≠ main_arg2 ∧ b ≠ main_arg3

theorem mem_T (b : Ref sig .tc) : b ∈ T ↔ b ≠ main_arg1 ∧ b ≠ main_arg2 ∧ b ≠ main_arg3 := by
  unfold T; rw [Finset.mem_filter]; exact ⟨fun h => h.2, fun h => ⟨Finset.mem_univ _, h⟩⟩

/-- No operation after the region writes `main_arg1`: each writes its own result buffer only, and that is another buffer. -/
theorem tail_keeps_main_arg1 : ∀ op ∈ List.flatten ([hostOps1, hostOps1_1, hostOps1_2, hostOps1_3] : List (List (HloOp τ sig (Elt F)))),
    Proc.devRef .tc main_arg1 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No operation after the region writes `main_arg2`: each writes its own result buffer only, and that is another buffer. -/
theorem tail_keeps_main_arg2 : ∀ op ∈ List.flatten ([hostOps1, hostOps1_1, hostOps1_2, hostOps1_3] : List (List (HloOp τ sig (Elt F)))),
    Proc.devRef .tc main_arg2 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
/-- No operation after the region writes `main_arg3`: each writes its own result buffer only, and that is another buffer. -/
theorem tail_keeps_main_arg3 : ∀ op ∈ List.flatten ([hostOps1, hostOps1_1, hostOps1_2, hostOps1_3] : List (List (HloOp τ sig (Elt F)))),
    Proc.devRef .tc main_arg3 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- So every buffer a line after the region writes is in `T`. -/
theorem tail_writes_T : ∀ ops ∈ ([hostOps1, hostOps1_1, hostOps1_2, hostOps1_3] : List (List (HloOp τ sig (Elt F)))), ∀ op ∈ ops,
    ∀ b : Ref sig .tc, Proc.devRef .tc b ∈ op.writes → b ∈ T := by
  intro ops hops op hop b hb
  have hmem : op ∈ List.flatten ([hostOps1, hostOps1_1, hostOps1_2, hostOps1_3] : List (List (HloOp τ sig (Elt F)))) :=
    List.mem_flatten.mpr ⟨ops, hops, hop⟩
  rw [mem_T]
  refine ⟨?_, ?_, ?_⟩ <;> rintro rfl
  · exact tail_keeps_main_arg1 op hmem hb
  · exact tail_keeps_main_arg2 op hmem hb
  · exact tail_keeps_main_arg3 op hmem hb

/-! ## The run and the frame -/

set_option backward.isDefEq.respectTransparency.types false in
/-- At the compiled mesh, for any values, from any memory with zero counters: every weakly fair execution of @main on
    the TensorCores terminates, and in every final state each array of the pipeline holds some contents it may hold
    after every write-back and every other unscoped buffer outside `T` what it held when the region was entered. -/
theorem run_main : θ_run defs (onTc (τ := τ) (main (F := F))) (s₀ m ρ)
    (RDat.FramePostR cfg0 (rdat m) T (V m)) :=
  Pipeline.RDat.θ_run_frame_around_T cfgs (0 : Fin 1) launch0 defs₀ Variants.none (rdat m) T m ρ main
    (hbody := body_obligation m) (hshare := fun c => (rdat m c).share_full fun _ => rfl)
    (howed := fun _ _ => rfl) (V₀ := V0 m) (opss := [hostOps1, hostOps1_1, hostOps1_2, hostOps1_3])
    (hsub := sfx_sub) (hfresh := sfx_fresh) (hkeep := sfx_keeps) (hT := tail_writes_T)
    (hmain := hmain m Variants.none) (hA := A_eq m) (hΦ := fun _ _ => rfl)

/-- The frame claim's post at any `F`: `main_arg0` is window 0's array, an input, so it ends at its entry contents,
    which are the launch's; the other three arguments are no window's array and are outside `T`, so they end as the
    region found them, which is as launched. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.arr_in c 0 rfl).trans ((A_eq m c 0).trans (V_main_arg0 m c)),
      ((h c).2 main_arg1 (Finset.mem_sdiff.mpr ⟨Pipeline.mem_restRefs_of main_arg1 (by decide) (by decide),
        fun hT => ((mem_T _).mp hT).1 rfl⟩)).trans (V_main_arg1 m c),
      ((h c).2 main_arg2 (Finset.mem_sdiff.mpr ⟨Pipeline.mem_restRefs_of main_arg2 (by decide) (by decide),
        fun hT => ((mem_T _).mp hT).2.1 rfl⟩)).trans (V_main_arg2 m c),
      ((h c).2 main_arg3 (Finset.mem_sdiff.mpr ⟨Pipeline.mem_restRefs_of main_arg3 (by decide) (by decide),
        fun hT => ((mem_T _).mp hT).2.2 rfl⟩)).trans (V_main_arg3 m c)⟩) (run_main m ρ)

/-- THE FRAME of the word-level program, at the bit-exact instance. -/
theorem frame : Cert.frame_Kernel := fun m g _ => frameF (F := Bits) m g

end Cert.KernelFrame

end
-- ==== Proof.KBody.lean ====
/-
  The body of the linear kernel as a triple: on four whole staging buffers — the x block, the weights, the bias
  row, the result block — holding X0, X1, X2 and anything, it ends with the first three as they were and the
  result buffer holding `matmul(X0, X1, 0) + broadcast X2`, the body's one payload over what it loaded.
-/
import proofs.«413938_j38654705664296_3_alg».proof.Proof.Gen.KernelIdeal.Frame
import proofs.«413938_j38654705664296_3_alg».proof.Proof.Gen.KernelIdeal.Skeleton
import Idealize.ShloMosaic.Lib.Pipeline.Value

set_option maxRecDepth 16384

noncomputable section

namespace Cert.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rX : Rect S4096x256 := Rect.unit (s := S4096x256) ![0, 0] S4096x256.size inb_S4096x256_S4096x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

theorem hz2 : (![0, 0] : Fin 2 → Nat) = fun _ => 0 := funext fun a => by fin_cases a <;> rfl

/-- The result buffer after the body's one whole store, as the list of its stores. -/
def outBlk (x0 : Vec F S4096x256 .f32) (x1 : Vec F S256x256 .bf16) (x2 : Vec F S1x256 .f32) : Vec F S4096x256 .f32 :=
  View.canon [⟨rX, k0_pay1 (View.ld x0 rX) (View.ld x1 rW) (View.ld x2 rB)⟩]

/-- One whole store leaves its payload, and a whole load reads the buffer. -/
theorem outBlk_eq (x0 : Vec F S4096x256 .f32) (x1 : Vec F S256x256 .bf16) (x2 : Vec F S1x256 .f32) :
    outBlk x0 x1 x2 = k0_pay1 x0 x1 x2 := by
  unfold outBlk
  rw [View.canon_unit_zero hz2, View.ld_unit_zero (S := S4096x256) hz2, View.ld_unit_zero (S := S256x256) hz2,
    View.ld_unit_zero (S := S1x256) hz2]

theorem coverX (p0 : Vec F S4096x256 .f32) (y : S4096x256.Idx) :
    ∃ pc ∈ ([⟨rX, p0⟩] : List (View.Piece (Elt F) S4096x256 .f32)), y ∈ pc.1.set :=
  View.cover_of_tiled [⟨rX, p0⟩] S4096x256.size (by rfl) y

set_option maxHeartbeats 1000000 in
theorem sound_kernel (c : Dev nD) (E : Set ℕ) (i : grid0.Coords)
    (arg1 : Memref sig .tc .vmem S4096x256 .f32) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S4096x256 .f32) (harg4 : arg4.IsWhole)
    (x0 : Vec F S4096x256 .f32) (x1 : Vec F S256x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverX _)

end Cert.KBody

end
-- ==== Proof.KRun.lean ====
/-
  The run of the program that maps the coarse rows first, at the extended reals.

  The pallas_call walks x in eleven blocks of 4096 rows; the last block has two rows inside the array, and its
  staging buffer's other rows hold nothing a statement names. After the body at a point the x buffer holds the
  block (filled out with zeros where the statement is free), the weight and bias buffers their whole arrays, and
  the result buffer the body's payload of those; since row p of a matrix product reads only row p of its left
  factor, the rows inside the array of the payload do not depend on how the x buffer is filled out.
-/
import proofs.«413938_j38654705664296_3_alg».proof.Proof.KBody
import Idealize.ShloMosaic.Lib.Pipeline.FrameSuffix

set_option maxRecDepth 16384

noncomputable section

namespace Cert.KRun

open Cert.KernelIdeal Cert.KernelIdeal.Gen Cert.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The x block at point t, filled out past the array's end with the zero word. -/
def xfill (c : Dev nD) (t : Fin cfg0.N) : Vec F S4096x256 .f32 :=
  win0_0.fill (grid0.coords t) (fun _ => Scalar.ofBits .f32 0#32) (iblk m c 0 t)

/-- What the body leaves in the result buffer at point t, named over the filled-out x block. -/
def oblk (c : Dev nD) (t : Fin cfg0.N) : Vec F S4096x256 .f32 :=
  outBlk (xfill m c t) (iblk m c 1 t) (iblk m c 2 t)

/-- The proof data: the arrays as the region finds them; after the body the buffers as above; the class
    invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfill m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = oblk m c t := by dsimp only [dats]

/-- The x buffer as the body finds it: just fetched, the block on the rows inside the array. -/
theorem before_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk
  rw [A_eq]

theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body obligation, given that the rows inside the array of the body's payload do not depend on how the x
    buffer is filled out past the array's end (`hloc`; a fact of the instance's matrix product). -/
theorem body_obligation (c : Dev nD)
    (hloc : ∀ (t : Fin cfg0.N) (d : Vec F S4096x256 .f32),
      (win0 3).cut (grid0.coords t) (outBlk (win0_0.fill (grid0.coords t) d (iblk m c 0 t)) (iblk m c 1 t) (iblk m c 2 t))
        = (win0 3).cut (grid0.coords t) (oblk m c t)) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl,
    after_1 m c t, after_2 m c t, after_3 m c t]
  iintro ⟨HΦ, Ho, ⟨%d0, H0⟩, ⟨%d1, H1⟩, ⟨%d2, H2⟩, ⟨%d3, H3⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (xfill m c t)))
    rw [show win0_0.cut (grid0.coords t) (xfill m c t) = iblk m c 0 t from win0_0.cut_fill _ _ _]
    try iexact H0
  isplitl [H1]; · iexact H1
  isplitl [H2]; · iexact H2
  · iexists (outBlk (win0_0.fill (grid0.coords t) d0 (iblk m c 0 t)) (iblk m c 1 t) (iblk m c 2 t))
    rw [Window.fill_congr_cut (win0 3) (grid0.coords t) (hloc t d0)]
    try iexact H3

end Cert.KRun

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.KPay.lean ====
/-
  The body's payload at the extended reals, entry by entry: entry (p, q) of `matmul(X, Wt, 0) + broadcast B` is
  Σₖ X[p,k]·Wt[k,q] + B[0,q] — a changed format is the same number, a matrix product into zero the plain sum.
  In particular row p of the payload reads row p of X and no other.
-/
import proofs.«413938_j38654705664296_3_alg».proof.Proof.KBody
import proofs.«413938_j38654705664296_3_alg».proof.Proof.LibMatmulPlain
import Idealize.ShloMosaic.Lib.ValueIdx
import Idealize.ShloMosaic.Lib.ValueLayout
import Idealize.ShloMosaic.Lib.Pipeline.Value

noncomputable section

namespace Cert.KPay

open Cert.KernelIdeal Cert.KernelIdeal.Gen
open Idealize.ShloMosaic Idealize.ShloMosaic.ValueIdx
open scoped BigOperators

/-- The body's product contracts the left factor's columns with the right factor's rows. -/
theorem dims_eq : dot_S4096x256_S256x256_S4096x256_1_0_0_1_n_n = DotDims.plain 4096 256 256 := rfl

/-- Entry (p, q) of the payload. -/
theorem pay_apply (X : Vec Ideal S4096x256 .f32) (Wt : Vec Ideal S256x256 .bf16) (B : Vec Ideal S1x256 .f32)
    (p : Fin 4096) (q : Fin 256) :
    k0_pay1 X Wt B (ix2 p q) = (∑ k : Fin 256, X (ix2 p k) * Wt (ix2 k q)) + B (ix2 (0 : Fin 1) q) := by
  unfold k0_pay1
  show addf (F := Ideal) (matmul (F := Ideal) dot_S4096x256_S256x256_S4096x256_1_0_0_1_n_n none (truncf (F := Ideal) .bf16 X bitsLt_bf16_f32)
      (shapeCast S256x256 Wt shapeCasts_S256x256_S256x256) (constant S4096x256 .f32 0x00000000#32))
      (broadcastTo S4096x256 (shapeCast S1x256 B shapeCasts_S1x256_S1x256) broadcasts_S1x256_S4096x256) (ix2 p q) = _
  rw [addf_apply, shapeCast_self, shapeCast_self, broadcastTo_1b_ab_apply, dims_eq,
    Cert.LibMatmulPlain.matmul_plain_apply]
  rfl

end Cert.KPay

end
-- ==== Proof.Spec.lean ====
/-
  The mathematics of the claim, stated over the argument arrays alone.

  x : [40962, 256] are the coarse vertices' features, idx : [122880, 2] the two parent vertices of each new vertex,
  W : [256, 256] and b : [256] an affine map y = x·Wᵀ + b. Row r of the result is, for r < 40962, the affine image
  of vertex r, and for r = 40962 + p the affine image of the mean of the two parents of new vertex p.

  One program averages the parents first and maps the 163842 rows (`outR`); the other maps the 40962 coarse rows
  once (`linArr`) and then, for every row, halves the sum of two mapped rows — the row itself twice for a coarse
  row, the two parents' rows for a new one (`gath`). A parent index is read as both programs read it: a negative
  word counts from the end (`wrap`), and the result is clamped into the table (`row`).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![40962, 256]⟩
abbrev SI : Shape := ⟨2, ![122880, 2]⟩
abbrev SW : Shape := ⟨2, ![256, 256]⟩
abbrev SB : Shape := ⟨1, ![256]⟩
abbrev SO : Shape := ⟨2, ![163842, 256]⟩

/-- A negative index word counts from the end of the 40962 rows. -/
def wrap (v : BitVec 32) : BitVec 32 :=
  Scalar.select (IntOp.cmpi .slt v 0#32) (IntOp.addi v 40962#32) v

/-- The table row an index word selects: wrapped, read signed, clamped into 0 … 40961. -/
def row (v : BitVec 32) : Fin 40962 := ⟨min (wrap v).toInt.toNat 40961, by omega⟩

/-- The weight one half, as the word both programs spell. -/
def half : EReal := Ideal.ofBits .f32 0x3F000000#32

/-- Entry j of the affine image of row i: Σₖ x[i,k]·W[j,k] + b[j]. -/
def lin (x : SX.Idx → EReal) (W : SW.Idx → EReal) (b : SB.Idx → EReal) (i : Fin 40962) (j : Fin 256) : EReal :=
  (∑ k : Fin 256, x (ix2 i k) * W (ix2 j k)) + b (ix1 j)

/-- The affine image of all coarse rows, as an array. -/
def linArr (x : SX.Idx → EReal) (W : SW.Idx → EReal) (b : SB.Idx → EReal) : SX.Idx → EReal :=
  fun i => lin x W b (i 0) (i 1)

/-- New vertex p of result row r ≥ 40962. -/
def newOf (o : SO.Idx) (h : ¬ (o 0).val < 40962) : Fin 122880 :=
  ⟨(o 0).val - 40962, by have := idx2_lt0 o; omega⟩

/-- Half the sum of two rows of a table Y: row r twice for r < 40962, the two parents' rows of new vertex
    r − 40962 otherwise. -/
def gath (Y : SX.Idx → EReal) (idx : SI.Idx → BitVec 32) : SO.Idx → EReal := fun o =>
  if h : (o 0).val < 40962 then (Y (ix2 ⟨(o 0).val, h⟩ (o 1)) + Y (ix2 ⟨(o 0).val, h⟩ (o 1))) * half
  else (Y (ix2 (row (idx (ix2 (newOf o h) 0))) (o 1)) + Y (ix2 (row (idx (ix2 (newOf o h) 1))) (o 1))) * half

/-- The result of the program that maps the coarse rows first. -/
def outK (x : SX.Idx → EReal) (idx : SI.Idx → BitVec 32) (W : SW.Idx → EReal) (b : SB.Idx → EReal) : SO.Idx → EReal :=
  gath (linArr x W b) idx

/-- The 163842 rows the other program maps: the coarse rows, then the parents' means. -/
def full (x : SX.Idx → EReal) (idx : SI.Idx → BitVec 32) : SO.Idx → EReal := fun o =>
  if h : (o 0).val < 40962 then x (ix2 ⟨(o 0).val, h⟩ (o 1))
  else (x (ix2 (row (idx (ix2 (newOf o h) 0))) (o 1)) + x (ix2 (row (idx (ix2 (newOf o h) 1))) (o 1))) * half

/-- The result of the program that averages first: Σₖ full[r,k]·W[j,k] + b[j]. -/
def outR (x : SX.Idx → EReal) (idx : SI.Idx → BitVec 32) (W : SW.Idx → EReal) (b : SB.Idx → EReal) : SO.Idx → EReal :=
  fun o => (∑ k : Fin 256, full x idx (ix2 (o 0) k) * W (ix2 (o 1) k)) + b (ix1 (o 1))

end Cert.Spec

end
-- ==== Proof.KValue.lean ====
/-
  What the pallas_call leaves in its result array, at the extended reals: the affine image of every coarse row.

  Point t writes back rows 4096·t … of the result block, cut to the 40962 rows of the array (two rows at the last
  point). Row p of the block is Σₖ xblock[p,k]·Wᵀ[k,q] + b[q]; a row inside the array reads the array's row
  4096·t + p of x, whatever fills the buffer past the array's end. The eleven blocks cover the array.
-/
import proofs.«413938_j38654705664296_3_alg».proof.Proof.KRun
import proofs.«413938_j38654705664296_3_alg».proof.Proof.KPay
import proofs.«413938_j38654705664296_3_alg».proof.Proof.Spec
import Idealize.ShloMosaic.Lib.Pipeline.Value
import Idealize.ShloMosaic.Lib.StableHlo.Run

set_option maxRecDepth 16384

noncomputable section

namespace Cert.KValue

open Cert.KernelIdeal Cert.KernelIdeal.Gen Cert.KBody Cert.KRun Cert.KPay
open Idealize.ShloMosaic Idealize.ShloMosaic.TcCoe Idealize.ShloMosaic.ValueIdx Idealize.ShloMosaic.StableHlo
open Idealize.SL.Sem
open Idealize.ShloMosaic.Pipeline (Dat Cfg Window)
open scoped BigOperators

variable (m : (ℓ : Loc nD τ sig) → Buf (Elt Ideal) ℓ) (ρ : Dev nD → PrngReg)

/-! ## The schedule's arithmetic, decided over the eleven points -/

theorem xs1_0 : ∀ t : Fin cfg0.N, win0_0.xsize (grid0.coords t) 1 = 256 :=
  (by decide +kernel : ∀ t : Fin grid0.N, win0_0.xsize (grid0.coords t) 1 = 256)
theorem xs_eq : ∀ t : Fin cfg0.N, win0_3.xsize (grid0.coords t) 0 = win0_0.xsize (grid0.coords t) 0 :=
  (by decide +kernel : ∀ t : Fin grid0.N, win0_3.xsize (grid0.coords t) 0 = win0_0.xsize (grid0.coords t) 0)
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = t.val ∧ win0_3.index t 1 = 0 :=
  (by decide +kernel : ∀ t : Fin grid0.N, win0_3.index t 0 = t.val ∧ win0_3.index t 1 = 0)
/-- Block t ends at row 4096·(t + 1), or at the array's end. -/
theorem xs0_3 : ∀ t : Fin cfg0.N, t.val * 4096 + win0_3.xsize (grid0.coords t) 0 = min ((t.val + 1) * 4096) 40962
    ∧ win0_3.xsize (grid0.coords t) 1 = 256 :=
  (by decide +kernel : ∀ t : Fin grid0.N, t.val * 4096 + win0_3.xsize (grid0.coords t) 0 = min ((t.val + 1) * 4096) 40962
    ∧ win0_3.xsize (grid0.coords t) 1 = 256)

/-! ## Rows inside the array do not see the filling -/

/-- An entry of a filled-out block on a row inside the array is the block's, whatever fills the rest. -/
theorem fill_indep (t : Fin cfg0.N) (d d' : Vec Ideal S4096x256 .f32)
    (g : (win0_0.xblock (grid0.coords t)).Idx → Elt Ideal .f32) (p : Fin 4096) (k : Fin 256)
    (hp : p.val < win0_0.xsize (grid0.coords t) 0) :
    win0_0.fill (grid0.coords t) d g (ix2 p k) = win0_0.fill (grid0.coords t) d' g (ix2 p k) := by
  have hy : win0_0.moved (grid0.coords t) (ix2 p k) = true :=
    (win0_0.moved_iff (grid0.coords t) (ix2 p k)).mpr (show ∀ a : Fin 2, _ from fun a =>
      match a with
      | ⟨0, _⟩ => hp
      | ⟨1, _⟩ => (show k.val < win0_0.xsize (grid0.coords t) 1 from by rw [xs1_0 t]; exact k.isLt))
  unfold Window.fill
  rw [dif_pos hy, dif_pos hy]

/-- The rows inside the array of the body's payload do not depend on how the x buffer is filled out. -/
theorem hloc (c : Dev nD) (t : Fin cfg0.N) (d : Vec Ideal S4096x256 .f32) :
    (win0 3).cut (grid0.coords t) (outBlk (win0_0.fill (grid0.coords t) d (iblk m c 0 t)) (iblk m c 1 t) (iblk m c 2 t))
      = (win0 3).cut (grid0.coords t) (oblk m c t) := by
  unfold oblk xfill
  rw [outBlk_eq, outBlk_eq]
  funext j
  have hj0 : (j 0).val < win0_0.xsize (grid0.coords t) 0 := (xs_eq t) ▸ (j 0).isLt
  have hj0' : (j 0).val < 4096 := lt_of_lt_of_le hj0 (win0_0.xsize_le (grid0.coords t) 0)
  have hj1 : (j 1).val < 256 := (xs0_3 t).2 ▸ (j 1).isLt
  have hx : (win0 3).xinj (grid0.coords t) j = ix2 (⟨(j 0).val, hj0'⟩ : Fin 4096) (⟨(j 1).val, hj1⟩ : Fin 256) :=
    funext fun a => Fin.ext (match a with | ⟨0, _⟩ => rfl | ⟨1, _⟩ => rfl)
  show k0_pay1 _ _ _ ((win0 3).xinj (grid0.coords t) j) = k0_pay1 _ _ _ ((win0 3).xinj (grid0.coords t) j)
  rw [hx, pay_apply, pay_apply]
  congr 1
  refine Finset.sum_congr rfl fun k _ => ?_
  rw [fill_indep t d _ _ ⟨(j 0).val, hj0'⟩ k hj0]

/-! ## The arrays the region finds, and the blocks read off them -/

/-- The weights as the region finds them: W transposed (a changed format is the same number). -/
theorem V_v5 (c : Dev nD) : (V m c main_v5 : S256x256.Idx → EReal)
    = truncf (F := Ideal) .bf16 (transpose S256x256 [1, 0] (m ((c : Thread nD τ).loc main_arg2)) transposes_S256x256_S256x256_1_0) bitsLt_bf16_f32 := by
  show StableHlo.after hostOps0 (fun b => m (c, b)) (Proc.devRef .tc main_v5) = _
  after_results
  all_goals rfl

/-- The bias as the region finds it: b as one row. -/
theorem V_v6 (c : Dev nD) : (V m c main_v6 : S1x256.Idx → EReal)
    = shapeCast S1x256 (m ((c : Thread nD τ).loc main_arg3)) shapeCasts_S256_S1x256 := by
  show StableHlo.after hostOps0 (fun b => m (c, b)) (Proc.devRef .tc main_v6) = _
  after_results
  all_goals rfl

/-- Entry y of the x block at point t is entry (4096·t + y₀, y₁) of x. -/
theorem iblk0_apply (c : Dev nD) (t : Fin cfg0.N) (y : (win0_0.xblock (grid0.coords t)).Idx) (p : Fin 40962) (k : Fin 256)
    (hp : p.val = t.val * 4096 + (y 0).val) (hk : k.val = (y 1).val) :
    iblk m c 0 t y = (m ((c : Thread nD τ).loc main_arg0) : S40962x256.Idx → EReal) (ix2 p k) := by
  unfold iblk
  rw [View.read_apply]
  show V m c main_arg0 _ = _
  rw [V_main_arg0 m c]
  show (m ((c : Thread nD τ).loc main_arg0) : S40962x256.Idx → EReal) _ = _
  congr 1
  funext a
  apply Fin.ext
  match a with
  | ⟨0, _⟩ => show win0_0.index t 0 * 4096 + 1 * (y 0).val = p.val; rw [(idx_0 t).1, hp]; omega
  | ⟨1, _⟩ => show win0_0.index t 1 * 256 + 1 * (y 1).val = k.val; rw [(idx_0 t).2, hk]; omega

/-- The weight block at any point is the whole array. -/
theorem iblk1_apply (c : Dev nD) (t : Fin cfg0.N) (k q : Fin 256) :
    (iblk m c 1 t : S256x256.Idx → EReal) (ix2 k q) = (V m c main_v5 : S256x256.Idx → EReal) (ix2 k q) := by
  unfold iblk
  rw [View.read_apply]
  show (V m c main_v5 : S256x256.Idx → EReal) _ = _
  congr 1
  funext a
  apply Fin.ext
  match a with
  | ⟨0, _⟩ => show win0_1.index t 0 * 256 + 1 * k.val = k.val; rw [(idx_1 t).1]; omega
  | ⟨1, _⟩ => show win0_1.index t 1 * 256 + 1 * q.val = q.val; rw [(idx_1 t).2]; omega

/-- The bias block at any point is the whole row. -/
theorem iblk2_apply (c : Dev nD) (t : Fin cfg0.N) (q : Fin 256) :
    (iblk m c 2 t : S1x256.Idx → EReal) (ix2 (0 : Fin 1) q) = (V m c main_v6 : S1x256.Idx → EReal) (ix2 (0 : Fin 1) q) := by
  unfold iblk
  rw [View.read_apply]
  show (V m c main_v6 : S1x256.Idx → EReal) _ = _
  congr 1
  funext a
  apply Fin.ext
  match a with
  | ⟨0, _⟩ => show win0_2.index t 0 * 1 + 1 * 0 = 0; rw [(idx_2 t).1]
  | ⟨1, _⟩ => show win0_2.index t 1 * 256 + 1 * q.val = q.val; rw [(idx_2 t).2]; omega

/-! ## The result array after the region -/

/-- The affine image of the coarse rows, as the result array's contents. -/
abbrev G (c : Dev nD) : Buf (Elt Ideal) ((cfg0.win 3).arr.view.loc (c.tc : Thread nD τ)) :=
  Cert.Spec.linArr (m ((c : Thread nD τ).loc main_arg0)) (m ((c : Thread nD τ).loc main_arg2)) (m ((c : Thread nD τ).loc main_arg3))

/-- What point t writes back is block t of the affine image. -/
theorem flushed_eq (c : Dev nD) (t : Fin cfg0.N) (hf : (cfg0.win 3).flush t = true) :
    (dats m 0 c).flushed 3 t = ((cfg0.win 3).blk t).view.read (Elt Ideal) (G m c) := by
  show (cfg0.win 3).cut (grid0.coords t) ((dats m 0 c).after 3 t) = _
  rw [after_3]
  unfold oblk
  rw [outBlk_eq]
  funext j
  have hj0 : (j 0).val < win0_0.xsize (grid0.coords t) 0 := (xs_eq t) ▸ (j 0).isLt
  have hj0' : (j 0).val < 4096 := lt_of_lt_of_le hj0 (win0_0.xsize_le (grid0.coords t) 0)
  have hj1 : (j 1).val < 256 := (xs0_3 t).2 ▸ (j 1).isLt
  have hx : (win0 3).xinj (grid0.coords t) j = ix2 (⟨(j 0).val, hj0'⟩ : Fin 4096) (⟨(j 1).val, hj1⟩ : Fin 256) :=
    funext fun a => Fin.ext (match a with | ⟨0, _⟩ => rfl | ⟨1, _⟩ => rfl)
  have hrow : t.val * 4096 + (j 0).val < 40962 := by
    have h1 := (xs0_3 t).1
    have h2 : (j 0).val < win0_3.xsize (grid0.coords t) 0 := (j 0).isLt
    omega
  have he : ((cfg0.win 3).blk t).view.emb j = ix2 (⟨t.val * 4096 + (j 0).val, hrow⟩ : Fin 40962) (⟨(j 1).val, hj1⟩ : Fin 256) :=
    funext fun a => Fin.ext (match a with
      | ⟨0, _⟩ => (show win0_3.index t 0 * 4096 + 1 * (j 0).val = t.val * 4096 + (j 0).val from by rw [(idx_3 t).1]; omega)
      | ⟨1, _⟩ => (show win0_3.index t 1 * 256 + 1 * (j 1).val = (j 1).val from by rw [(idx_3 t).2]; omega))
  rw [View.read_apply]
  show k0_pay1 (F := Ideal) _ _ _ ((win0 3).xinj (grid0.coords t) j) = G m c (((cfg0.win 3).blk t).view.emb j)
  rw [hx, he, pay_apply]
  show _ = Cert.Spec.lin _ _ _ (⟨t.val * 4096 + (j 0).val, hrow⟩ : Fin 40962) (⟨(j 1).val, hj1⟩ : Fin 256)
  unfold Cert.Spec.lin
  congr 1
  · refine Finset.sum_congr rfl fun k _ => ?_
    congr 1
    · have hy : win0_0.moved (grid0.coords t) (ix2 (⟨(j 0).val, hj0'⟩ : Fin 4096) k) = true :=
        (win0_0.moved_iff (grid0.coords t) _).mpr (show ∀ a : Fin 2, _ from fun a =>
          match a with
          | ⟨0, _⟩ => hj0
          | ⟨1, _⟩ => (show k.val < win0_0.xsize (grid0.coords t) 1 from by rw [xs1_0 t]; exact k.isLt))
      unfold xfill Window.fill
      rw [dif_pos hy]
      exact iblk0_apply m c t _ ⟨_, hrow⟩ k rfl rfl
    · rw [iblk1_apply, V_v5, truncf_apply]
      exact transpose_ix2_apply _ _ k ⟨(j 1).val, hj1⟩
  · rw [iblk2_apply, V_v6]
    exact shapeCast_a_1a_apply _ _ (0 : Fin 1) ⟨(j 1).val, hj1⟩

/-- Every row of the array is in the block of the point that holds it. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0 : Nat) < 40962 := (i 0).isLt
  have hi1 : (i 1 : Nat) < 256 := (i 1).isLt
  have hN : cfg0.N = 11 := N_0
  have ht : (i 0 : Nat) / 4096 < cfg0.N := by rw [hN]; omega
  refine ⟨⟨(i 0 : Nat) / 4096, ht⟩, flush0_3 _, ?_⟩
  show i ∈ ((View.whole main_v7).slice (win0_3.rect ⟨(i 0 : Nat) / 4096, ht⟩)).set
  rw [View.set_slice_whole, Rect.mem_set_unit]
  intro a
  have h3 := idx_3 ⟨(i 0 : Nat) / 4096, ht⟩
  have h4 := xs0_3 ⟨(i 0 : Nat) / 4096, ht⟩
  match a with
  | ⟨0, _⟩ =>
    show win0_3.index ⟨(i 0 : Nat) / 4096, ht⟩ 0 * 4096 ≤ (i 0 : Nat)
      ∧ (i 0 : Nat) < win0_3.index ⟨(i 0 : Nat) / 4096, ht⟩ 0 * 4096 + win0_3.xsize (grid0.coords ⟨(i 0 : Nat) / 4096, ht⟩) 0
    rw [h3.1]
    have := h4.1
    simp only at this ⊢
    omega
  | ⟨1, _⟩ =>
    show win0_3.index ⟨(i 0 : Nat) / 4096, ht⟩ 1 * 256 ≤ (i 1 : Nat)
      ∧ (i 1 : Nat) < win0_3.index ⟨(i 0 : Nat) / 4096, ht⟩ 1 * 256 + win0_3.xsize (grid0.coords ⟨(i 0 : Nat) / 4096, ht⟩) 1
    rw [h3.2, h4.2]
    omega

/-- So the result array ends holding the affine image of the coarse rows. -/
theorem final (c : Dev nD) : (dats m 0 c).arrAt 3 cfg0.N = G m c :=
  (dats m 0 c).arrAt_eq_of_cover 3 (G m c) (flushed_eq m c) (cover c)

/-! ## The run -/

set_option backward.isDefEq.respectTransparency.types false in
/-- Every weakly fair execution of @main terminates; each array of the pipeline ends at what the proof data
    computes, every other unscoped buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => body_obligation m c (hloc m c)) (hshare := fun c => (dats m 0 c).share_full fun _ => rfl)
    (howed := fun _ _ => rfl) (V₀ := V0 m) (opss := [hostOps1, hostOps1_1, hostOps1_2, hostOps1_3])
    (hsub := sfx_sub) (hfresh := sfx_fresh) (hkeep := sfx_keeps)
    (hmain := hmain m Variants.none) (hA := A_eq m) (hΦ := fun _ _ => rfl)

end Cert.KValue

end
-- ==== Proof.LibGatherRows.lean ====
/-
  Taking rows of a matrix by an index column, read at an entry.

  A gather of whole rows of an N×C matrix x at an R×1 column of index words (offset axis 1, collapsed axis 0, the
  start index mapped to axis 0, slices 1×C) is, at entry (r, j), the entry j of the row the word idx[r, 0] names:
  the word read signed and clamped into 0 … N − 1.
-/
import Idealize.ShloMosaic.Lib.ValueIdx

namespace Cert.LibGatherRows

open Idealize.ShloMosaic Idealize.ShloMosaic.ValueIdx

variable {α : Type}

/-- The dimension numbers of a take of rows: operand `[N, C]`, start indices `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (r, j) of the rows taken: row `clamp (idx[r, 0])` of the operand at column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowDims N R C wf) x idx (ix2 r j)
      = x (ix2 ⟨min (idx (ix2 r (0 : Fin 1))).toInt.toNat (N - 1), by omega⟩ j) := by
  unfold Host.gather
  congr 1
  funext a
  refine Fin.ext ?_
  match a with
  | ⟨0, _⟩ =>
    show (rowDims N R C wf).start (ix2 r j) idx 0 + (rowDims N R C wf).batchCoord (ix2 r j) 0
        + (rowDims N R C wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r j) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r j) idx 1 + (rowDims N R C wf).batchCoord (ix2 r j) 1
        + (rowDims N R C wf).offCoord (ix2 r j) 1 = j.val
    have hs : (rowDims N R C wf).start (ix2 r j) idx 1 = 0 := by
      unfold GatherDims.start
      rw [dif_neg (show ¬ (1 : Fin 2) ∈ [(0 : Fin 2)] from by decide)]
    have hk : (1 : Fin 2) ∈ (rowDims N R C wf).sKept :=
      (GatherDims.mem_sKept _ _).mpr ⟨(show ¬ (1 : Fin 2) ∈ [(0 : Fin 2)] from by decide), List.not_mem_nil⟩
    rw [hs, GatherDims.batchCoord_eq_zero _ _ _ List.not_mem_nil]
    unfold GatherDims.offCoord
    rw [dif_pos hk]
    have hsk : (rowDims N R C wf).sKept = [(1 : Fin 2)] := rfl
    simp only [hsk, Nat.zero_add]
    rfl

end Cert.LibGatherRows
-- ==== Proof.KTailTerm.lean ====
/-
  The operations after the region, as one term.

  After the region the program makes the row numbers 0 … 40961, puts each of the two index columns behind them, takes
  rows of the region's table by each of the two vectors (a negative word counts from the end; the row is read clamped;
  where the wrapped word names no row the entry is the quiet NaN), and halves the sum of the two takes. This module names
  those steps and shows that the last buffer holds `tailOf` of the table and the two columns.
-/
import proofs.«413938_j38654705664296_3_alg».proof.Proof.Gen.KernelIdeal.Frame
import proofs.«413938_j38654705664296_3_alg».proof.Proof.Spec
import proofs.«413938_j38654705664296_3_alg».proof.Proof.LibGatherRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.IdealHost
import Idealize.ShloMosaic.PureOps.Reduce

set_option maxRecDepth 16384

noncomputable section

namespace Cert.KTail

open Idealize.ShloMosaic Idealize.ShloMosaic.TcCoe Idealize.ShloMosaic.ValueIdx
open Cert.KernelIdeal Cert.KernelIdeal.Gen

/-- An index word wrapped: a negative word counts from the end of the 40962 rows. -/
def wrapV (ix : IVec S163842 32) : IVec S163842 32 :=
  select (cmpi .slt ix (broadcastInDim S163842 ![] bcast_S_S163842 (constantI S_ 32 0#32)))
    (addi ix (broadcastInDim S163842 ![] bcast_S_S163842 (constantI S_ 32 40962#32))) ix

/-- The wrapped words as a column. -/
def colV (ix : IVec S163842 32) : IVec S163842x1 32 :=
  broadcastInDim S163842x1 ![0] bcast_S163842_S163842x1_0 (wrapV ix)

/-- Whether a wrapped word names a row: 0 ≤ word ≤ 40961. -/
def inRangeV (ix : IVec S163842 32) : IVec S163842x1 1 :=
  andi (cmpi .sge (colV ix) (broadcastInDim S163842x1 ![] bcast_S_S163842x1 (constantI S_ 32 0#32)))
    (cmpi .sle (colV ix) (broadcastInDim S163842x1 ![0, 1] bcast_S1x1_S163842x1_0_1
      (broadcastInDim S1x1 ![1] bcast_S1_S1x1_1 (constantI S1 32 40961#32))))

/-- The same, reduced along the unit axis. -/
def maskV (ix : IVec S163842 32) : IVec S163842 1 :=
  Host.reduce IntOp.andi (inRangeV ix) (constantI S_ 1 1#1) reducesTo_S163842x1_S163842_d1 h_S_

/-- Rows of a table taken by index words: the row a wrapped word names where it names one, the quiet NaN elsewhere. -/
def takeFill (Y : FVec Ideal S40962x256 .f32) (ix : IVec S163842 32) : FVec Ideal S163842x256 .f32 :=
  select (broadcastInDim S163842x256 ![0] bcast_S163842_S163842x256_0 (maskV ix))
    (Host.gather gather_S40962x256_S163842x1_S163842x256_1_0_n_n_0_1_1256 Y (colV ix))
    (broadcastInDim S163842x256 ![] bcast_S_S163842x256 (constant (F := Ideal) S_ .f32 0x7FC00000#32))

/-- The 40962 row numbers followed by a column of 122880 index words. -/
def catIdx (a : IVec S122880 32) : IVec S163842 32 :=
  concatenate S163842 0 [⟨S40962, iotaInDim S40962 32 0⟩, ⟨S122880, a⟩] concatenates_S40962_S122880_S163842_d0

/-- Half the sum of the rows taken by the two columns. -/
def tailOf (Y : FVec Ideal S40962x256 .f32) (a1 a3 : IVec S122880 32) : FVec Ideal S163842x256 .f32 :=
  mulf (addf (takeFill Y (catIdx a1)) (takeFill Y (catIdx a3)))
    (broadcastInDim S163842x256 ![] bcast_S_S163842x256 (constant (F := Ideal) S_ .f32 0x3F000000#32))

section Stages

variable (V : Valuation τ sig (Elt Ideal))

/-- Two lines run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-! The first stretch makes the two index vectors and keeps the table. -/

theorem s1_v9 : StableHlo.after hostOps1 V (Proc.devRef .tc main_v9) = catIdx (V (Proc.devRef .tc main_v1)) := by
  simp only [hostOps1]; after_results; unfold catIdx; rfl
theorem s1_v10 : StableHlo.after hostOps1 V (Proc.devRef .tc main_v10) = catIdx (V (Proc.devRef .tc main_v3)) := by
  simp only [hostOps1]; after_results; unfold catIdx; rfl
theorem s1_v7 : StableHlo.after hostOps1 V (Proc.devRef .tc main_v7) = V (Proc.devRef .tc main_v7) := by
  simp only [hostOps1]; after_results

/-! The second takes rows by the first vector and keeps the table and the second vector. -/

theorem s2_v11 : StableHlo.after hostOps1_1 V (Proc.devRef .tc main_v11)
    = takeFill (V (Proc.devRef .tc main_v7)) (V (Proc.devRef .tc main_v9)) := by
  simp only [hostOps1_1]; after_results_simp
  simp only [StableHlo.TRef.ofBuf, StableHlo.TRef.toBuf, cast_eq]
  unfold takeFill maskV inRangeV colV wrapV; rfl
theorem s2_v7 : StableHlo.after hostOps1_1 V (Proc.devRef .tc main_v7) = V (Proc.devRef .tc main_v7) := by
  simp only [hostOps1_1]; after_results_simp
theorem s2_v10 : StableHlo.after hostOps1_1 V (Proc.devRef .tc main_v10) = V (Proc.devRef .tc main_v10) := by
  simp only [hostOps1_1]; after_results_simp

/-! The third takes rows by the second vector and keeps the first take. -/

theorem s3_v12 : StableHlo.after hostOps1_2 V (Proc.devRef .tc main_v12)
    = takeFill (V (Proc.devRef .tc main_v7)) (V (Proc.devRef .tc main_v10)) := by
  simp only [hostOps1_2]; after_results_simp
  simp only [StableHlo.TRef.ofBuf, StableHlo.TRef.toBuf, cast_eq]
  unfold takeFill maskV inRangeV colV wrapV; rfl
theorem s3_v11 : StableHlo.after hostOps1_2 V (Proc.devRef .tc main_v11) = V (Proc.devRef .tc main_v11) := by
  simp only [hostOps1_2]; after_results_simp

/-! The last halves the sum of the two takes. -/

theorem s4_v15 : StableHlo.after hostOps1_3 V (Proc.devRef .tc main_v15)
    = mulf (addf (V (Proc.devRef .tc main_v11)) (V (Proc.devRef .tc main_v12)))
        (broadcastInDim S163842x256 ![] bcast_S_S163842x256 (constant (F := Ideal) S_ .f32 0x3F000000#32)) := by
  simp only [hostOps1_3]; after_results

end Stages

/-- What the operations after the region leave in the last buffer, over the table the region wrote and the two index
    columns the operations before the region made. -/
theorem tail_term (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1, hostOps1_1, hostOps1_2, hostOps1_3] c main_v15
      = tailOf
          (Pipeline.withArrays (cfgs 0).spec c (V0 m c) (fun w => (dats 0 c).arrAt w (cfgs 0).N) (Proc.devRef .tc main_v7))
          (Pipeline.withArrays (cfgs 0).spec c (V0 m c) (fun w => (dats 0 c).arrAt w (cfgs 0).N) (Proc.devRef .tc main_v1))
          (Pipeline.withArrays (cfgs 0).spec c (V0 m c) (fun w => (dats 0 c).arrAt w (cfgs 0).N) (Proc.devRef .tc main_v3)) := by
  unfold Pipeline.afterTail₀
  simp only [List.flatten_cons, List.flatten_nil, List.append_nil]
  rw [after_append, after_append, after_append, s4_v15, s3_v12, s3_v11, s2_v11, s2_v7, s2_v10,
    s1_v9, s1_v10, s1_v7]
  unfold tailOf
  rfl

end Cert.KTail

end
-- ==== Proof.KTail.lean ====
/-
  The operations after the region, read at an entry.

  With every index word in 0 … 40961 the wrap leaves a word as it is, the range test passes everywhere, and a take reads
  the row its word names; the row numbers prepended to a column are such words too, and row number r names row r. So the
  last buffer holds, at (r, j), half the sum of row r taken twice for r < 40962 and half the sum of the two parents' rows
  of new vertex r − 40962 otherwise: `Cert.Spec.gath` of the region's table and the index array.
-/
import proofs.«413938_j38654705664296_3_alg».proof.Proof.KTailTerm
import Idealize.ShloMosaic.Lib.Affine

set_option maxRecDepth 16384

noncomputable section

namespace Cert.KTail

open Idealize.ShloMosaic Idealize.ShloMosaic.TcCoe Idealize.ShloMosaic.ValueIdx
open Cert.KernelIdeal Cert.KernelIdeal.Gen

/-! ## An index word in 0 … 40961 -/

/-- Such a word is not wrapped. -/
theorem wrap_of_nonneg {v : BitVec 32} (h0 : 0 ≤ v.toInt) : Cert.Spec.wrap v = v := by
  unfold Cert.Spec.wrap Scalar.select
  rw [if_neg]
  intro h
  have h' := IntOp.cmpi_slt.1 h
  have z : (0#32 : BitVec 32).toInt = 0 := by decide
  omega

/-- It passes the range test. -/
theorem inRange_word {v : BitVec 32} (h0 : 0 ≤ v.toInt) (h1 : v.toInt < 40962) :
    IntOp.andi (IntOp.cmpi .sge v 0#32) (IntOp.cmpi .sle v 40961#32) = 1#1 := by
  have z : (0#32 : BitVec 32).toInt = 0 := by decide
  have z1 : (40961#32 : BitVec 32).toInt = 40961 := by decide
  exact IntOp.andi_eq_one.2 ⟨IntOp.cmpi_sge.2 (by omega), IntOp.cmpi_sle.2 (by omega)⟩

/-- The row it names is its value. -/
theorem row_val_of_inRange {v : BitVec 32} (h0 : 0 ≤ v.toInt) (h1 : v.toInt < 40962) :
    (Cert.Spec.row v).val = v.toInt.toNat := by
  show min (Cert.Spec.wrap v).toInt.toNat 40961 = _
  rw [wrap_of_nonneg h0]
  omega

/-- A fold by `and` over words that are all 1 keeps what it started from. -/
theorem foldl_andi_one {ι : Type} (f : ι → BitVec 1) (hf : ∀ n, f n = 1#1) :
    ∀ (l : List ι) (init : BitVec 1), l.foldl (fun r n => IntOp.andi r (f n)) init = init
  | [], _ => rfl
  | a :: l, init => by
    rw [List.foldl_cons, foldl_andi_one f hf l, hf a]
    revert init; decide

/-! ## A take read at an entry -/

theorem wrapV_apply (ix : IVec S163842 32) (i : S163842.Idx) : wrapV ix i = Cert.Spec.wrap (ix i) := by
  unfold wrapV; rfl

/-- The column of wrapped words at row r. -/
theorem colV_apply (ix : IVec S163842 32) (r : Fin 163842) (z : Fin 1) :
    colV ix (ix2 r z) = Cert.Spec.wrap (ix (ix1 r)) := by
  unfold colV
  refine (broadcastInDim_apply _ _ _ (ix2 r z) (ix1 r) ?_).trans (wrapV_apply ix (ix1 r))
  intro a
  match a with
  | ⟨0, _⟩ => exact (if_neg (show ¬ (163842 : ℕ) = 1 by decide)).symm

/-- The range test at row r. -/
theorem inRangeV_apply (ix : IVec S163842 32) (r : Fin 163842) (z : Fin 1) :
    inRangeV ix (ix2 r z)
      = IntOp.andi (IntOp.cmpi .sge (colV ix (ix2 r z)) 0#32) (IntOp.cmpi .sle (colV ix (ix2 r z)) 40961#32) := by
  unfold inRangeV; rfl

/-- With every word in range the test passes everywhere. -/
theorem inRangeV_one (ix : IVec S163842 32) (h : ∀ i, 0 ≤ (ix i).toInt ∧ (ix i).toInt < 40962) (i : S163842x1.Idx) :
    inRangeV ix i = 1#1 := by
  obtain ⟨r, z, rfl⟩ : ∃ (r : Fin 163842) (z : Fin 1), i = ix2 r z := ⟨i 0, i 1, eq_ix2 i⟩
  rw [inRangeV_apply, colV_apply, wrap_of_nonneg (h _).1]
  exact inRange_word (h _).1 (h _).2

/-- And so does its reduction along the unit axis. -/
theorem maskV_one (ix : IVec S163842 32) (h : ∀ i, inRangeV ix i = 1#1) (j : S163842.Idx) : maskV ix j = 1#1 := by
  unfold maskV
  rw [Host.reduce_eq_foldl, foldl_andi_one _ h]
  rfl

/-- With every word in range, entry (r, j) of a take is entry j of the row word r names. -/
theorem takeFill_apply (Y : FVec Ideal S40962x256 .f32) (ix : IVec S163842 32)
    (h : ∀ i, 0 ≤ (ix i).toInt ∧ (ix i).toInt < 40962) (r : Fin 163842) (j : Fin 256) :
    takeFill Y ix (ix2 r j) = Y (ix2 (Cert.Spec.row (ix (ix1 r))) j) := by
  have hm : broadcastInDim S163842x256 ![0] bcast_S163842_S163842x256_0 (maskV ix) (ix2 r j) = 1#1 :=
    (broadcastInDim_apply _ _ _ (ix2 r j) (ix1 r) (fun a => by
      match a with
      | ⟨0, _⟩ => exact (if_neg (show ¬ (163842 : ℕ) = 1 by decide)).symm)).trans (maskV_one ix (inRangeV_one ix h) _)
  have hg : gather_S40962x256_S163842x1_S163842x256_1_0_n_n_0_1_1256
      = Cert.LibGatherRows.rowDims 40962 163842 256 gather_S40962x256_S163842x1_S163842x256_1_0_n_n_0_1_1256_wf := by
    unfold gather_S40962x256_S163842x1_S163842x256_1_0_n_n_0_1_1256; rfl
  unfold takeFill
  rw [select_apply, hm]
  unfold Scalar.select
  rw [if_pos (show (1#1 : BitVec 1) = 1 from rfl), hg, Cert.LibGatherRows.gather_rows_apply (by decide)]
  refine congrArg Y (congrArg (fun q => ix2 q j) (Fin.ext ?_))
  show min (colV ix (ix2 r (0 : Fin 1))).toInt.toNat (40962 - 1) = min (Cert.Spec.wrap (ix (ix1 r))).toInt.toNat 40961
  rw [colV_apply]

/-! ## The row numbers followed by an index column -/

/-- Below 40962 the word is the row number. -/
theorem catIdx_lt (a : IVec S122880 32) (r : Fin 163842) (h : r.val < 40962) :
    catIdx a (ix1 r) = BitVec.ofNat 32 r.val := by
  unfold catIdx
  exact concatenate_pair_apply_left (0 : Fin S163842.rank) _ _ concatenates_S40962_S122880_S163842_d0 (ix1 r) rfl
    (ix1 ⟨r.val, h⟩) (fun b => by match b with | ⟨0, _⟩ => rfl)

/-- From 40962 on it is the column's word. -/
theorem catIdx_ge (a : IVec S122880 32) (r : Fin 163842) (h : ¬ r.val < 40962) :
    catIdx a (ix1 r) = a (ix1 ⟨r.val - 40962, by have := r.isLt; omega⟩) := by
  unfold catIdx
  exact concatenate_pair_apply_right (0 : Fin S163842.rank) _ _ concatenates_S40962_S122880_S163842_d0 (ix1 r) rfl rfl
    (ix1 ⟨r.val - 40962, by have := r.isLt; omega⟩)
    (fun b hb => by match b with | ⟨0, _⟩ => exact absurd rfl hb)
    (by show (r.val - 40962) + 40962 = r.val; omega)

/-- If the column's words are in range, so are all of them. -/
theorem catIdx_range (a : IVec S122880 32) (ha : ∀ p, 0 ≤ (a p).toInt ∧ (a p).toInt < 40962) (i : S163842.Idx) :
    0 ≤ (catIdx a i).toInt ∧ (catIdx a i).toInt < 40962 := by
  obtain ⟨r, rfl⟩ : ∃ r : Fin 163842, i = ix1 r := ⟨i 0, eq_ix1 i⟩
  by_cases h : r.val < 40962
  · rw [catIdx_lt a _ h, StableHlo.Predicate.toInt_ofNat_small _ (by omega)]
    omega
  · rw [catIdx_ge a _ h]
    exact ha _

/-! ## The two index columns -/

section Columns

variable (m : (ℓ : Loc nD τ sig) → Buf (Elt Ideal) ℓ) (c : Dev nD)

/-- The first column as the operations before the region leave it: entry p is the index array's (p, 0). -/
theorem col0_apply (p : Fin 122880) :
    (V0 m c (Proc.devRef .tc main_v1) : IVec S122880 32) (ix1 p)
      = (m ((c.tc : Thread nD τ).loc main_arg1) : IVec S122880x2 32) (ix2 p 0) := by
  have e : (V0 m c (Proc.devRef .tc main_v1) : IVec S122880 32)
      = shapeCast S122880 (extractStridedSlice S122880x1 ![0, 0]
          (m ((c.tc : Thread nD τ).loc main_arg1) : IVec S122880x2 32) slices_S122880x2_S122880x1_0_0)
          shapeCasts_S122880x1_S122880 := by
    dsimp only [V0]
    simp only [hostOps0, List.flatten_cons, List.flatten_nil, List.append_nil, List.cons_append, List.nil_append]
    after_results
    rfl
  rw [e]
  refine (shapeCast_apply _ _ (ix1 p) (ix2 p (0 : Fin 1)) ?_).trans ?_
  · rw [Shape.rowMajor_val_two, Shape.rowMajor_val_one]
    show p.val * 1 + 0 = p.val
    omega
  · exact extractStridedSlice_apply _ _ _ (ix2 p (0 : Fin 1)) (ix2 p 0) (fun a => by
      match a with
      | ⟨0, _⟩ => show p.val = 0 + p.val; omega
      | ⟨1, _⟩ => rfl)

/-- The second column: entry p is the index array's (p, 1). -/
theorem col1_apply (p : Fin 122880) :
    (V0 m c (Proc.devRef .tc main_v3) : IVec S122880 32) (ix1 p)
      = (m ((c.tc : Thread nD τ).loc main_arg1) : IVec S122880x2 32) (ix2 p 1) := by
  have e : (V0 m c (Proc.devRef .tc main_v3) : IVec S122880 32)
      = shapeCast S122880 (extractStridedSlice S122880x1 ![0, 1]
          (m ((c.tc : Thread nD τ).loc main_arg1) : IVec S122880x2 32) slices_S122880x2_S122880x1_0_1)
          shapeCasts_S122880x1_S122880 := by
    dsimp only [V0]
    simp only [hostOps0, List.flatten_cons, List.flatten_nil, List.append_nil, List.cons_append, List.nil_append]
    after_results
    rfl
  rw [e]
  refine (shapeCast_apply _ _ (ix1 p) (ix2 p (0 : Fin 1)) ?_).trans ?_
  · rw [Shape.rowMajor_val_two, Shape.rowMajor_val_one]
    show p.val * 1 + 0 = p.val
    omega
  · exact extractStridedSlice_apply _ _ _ (ix2 p (0 : Fin 1)) (ix2 p 1) (fun a => by
      match a with
      | ⟨0, _⟩ => show p.val = 0 + p.val; omega
      | ⟨1, _⟩ => rfl)

end Columns

/-! ## The last buffer -/

/-- Row number r names row r. -/
theorem row_ofNat (r : ℕ) (h : r < 40962) : Cert.Spec.row (BitVec.ofNat 32 r) = ⟨r, h⟩ := by
  have e : (BitVec.ofNat 32 r).toInt = (r : ℤ) := StableHlo.Predicate.toInt_ofNat_small r (by omega)
  refine Fin.ext ?_
  rw [row_val_of_inRange (by omega) (by omega), e]
  exact Int.toNat_natCast r

/-- With every index word in 0 … 40961, the last buffer is half the sum of two rows of the region's table: row r twice
    below 40962, the two parents' rows of new vertex r − 40962 from there on. -/
theorem tail_value (m : (ℓ : Loc nD τ sig) → Buf (Elt Ideal) ℓ)
    (dats : (p : Fin 1) → (c : Dev nD) → Pipeline.Dat τ (Elt Ideal) Unit ℕ (UR sig nD τ) ℕ (cfgs p) c) (c : Dev nD)
    (Y : Cert.Spec.SX.Idx → EReal)
    (hY : (dats 0 c).arrAt 3 cfg0.N = Y)
    (hidx : ∀ i, 0 ≤ (m ((c.tc : Thread nD τ).loc main_arg1) i).toInt
      ∧ (m ((c.tc : Thread nD τ).loc main_arg1) i).toInt < 40962) :
    Pipeline.afterTail₀ cfgs dats 0 (V0 m) [hostOps1, hostOps1_1, hostOps1_2, hostOps1_3] c main_v15
      = Cert.Spec.gath Y (m ((c.tc : Thread nD τ).loc main_arg1)) := by
  rw [tail_term]
  have e7 : Pipeline.withArrays (cfgs 0).spec c (V0 m c) (fun w => (dats 0 c).arrAt w (cfgs 0).N)
      (Proc.devRef .tc main_v7) = Y :=
    (Pipeline.withArrays_arr spec0 launch0.win.arr_inj c _ _ 3).trans hY
  have e1 : Pipeline.withArrays (cfgs 0).spec c (V0 m c) (fun w => (dats 0 c).arrAt w (cfgs 0).N)
      (Proc.devRef .tc main_v1) = V0 m c (Proc.devRef .tc main_v1) :=
    Pipeline.withArrays_of_ne _ c (V0 m c) _ main_v1 (by exact (by decide : ∀ w, Pipeline.arrRef spec0 w ≠ main_v1))
  have e3 : Pipeline.withArrays (cfgs 0).spec c (V0 m c) (fun w => (dats 0 c).arrAt w (cfgs 0).N)
      (Proc.devRef .tc main_v3) = V0 m c (Proc.devRef .tc main_v3) :=
    Pipeline.withArrays_of_ne _ c (V0 m c) _ main_v3 (by exact (by decide : ∀ w, Pipeline.arrRef spec0 w ≠ main_v3))
  rw [e7, e1, e3]
  have ha1 : ∀ p, 0 ≤ ((V0 m c (Proc.devRef .tc main_v1) : IVec S122880 32) p).toInt
      ∧ ((V0 m c (Proc.devRef .tc main_v1) : IVec S122880 32) p).toInt < 40962 := fun p => by
    obtain ⟨q, rfl⟩ : ∃ q : Fin 122880, p = ix1 q := ⟨p 0, eq_ix1 p⟩
    rw [col0_apply]; exact hidx _
  have ha3 : ∀ p, 0 ≤ ((V0 m c (Proc.devRef .tc main_v3) : IVec S122880 32) p).toInt
      ∧ ((V0 m c (Proc.devRef .tc main_v3) : IVec S122880 32) p).toInt < 40962 := fun p => by
    obtain ⟨q, rfl⟩ : ∃ q : Fin 122880, p = ix1 q := ⟨p 0, eq_ix1 p⟩
    rw [col1_apply]; exact hidx _
  funext o
  obtain ⟨r, j, rfl⟩ : ∃ (r : Fin 163842) (j : Fin 256), o = ix2 r j := ⟨o 0, o 1, eq_ix2 o⟩
  unfold tailOf
  rw [mulf_apply, addf_apply, takeFill_apply _ _ (catIdx_range _ ha1), takeFill_apply _ _ (catIdx_range _ ha3)]
  unfold Cert.Spec.gath
  by_cases h : r.val < 40962
  · rw [dif_pos (show ((ix2 r j : Cert.Spec.SO.Idx) 0).val < 40962 from h), catIdx_lt _ _ h, catIdx_lt _ _ h,
      row_ofNat r.val h]
    rfl
  · rw [dif_neg (show ¬ ((ix2 r j : Cert.Spec.SO.Idx) 0).val < 40962 from h), catIdx_ge _ _ h, catIdx_ge _ _ h,
      col0_apply, col1_apply]
    rfl

end Cert.KTail

end
-- ==== Proof.RefValue.lean ====
/-
  The reference's result, read at an entry, is the affine image of the 163842 rows: the coarse rows, then the means of the
  parents' rows.

  The program takes, for each new vertex p, the rows of x that the two words idx[p, 0] and idx[p, 1] name (a negative
  word counted from the end, then read signed and clamped into the table), halves their sum, lays these 122880 rows
  under the 40962 rows of x, contracts every row with every row of W and adds b. Entry (r, j) of the result is
  therefore Σₖ full[r, k]·W[j, k] + b[j], with full[r, ·] row r of x for r < 40962 and the halved sum of the two
  parents' rows of new vertex r − 40962 otherwise: the specification's `outR`.
-/
import proofs.«413938_j38654705664296_3_alg».proof.Proof.Gen.ReferenceIdeal.Run
import proofs.«413938_j38654705664296_3_alg».proof.Proof.Gen.ReferenceIdeal.Read
import proofs.«413938_j38654705664296_3_alg».proof.Proof.Spec
import proofs.«413938_j38654705664296_3_alg».proof.Proof.LibGatherRows
import Idealize.ShloMosaic.PureOps.Ideal
import Idealize.ShloMosaic.Lib.ValueIdx
import Idealize.ShloMosaic.Lib.Pipeline.Value

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read Cert.Spec
open scoped BigOperators

/-- The index word the first take of rows reads for new vertex p: the word idx[p, 0], wrapped. -/
theorem word0 (x1 : SI.Idx → BitVec 32) (p : Fin 122880) :
    val_main_v7 (F := Ideal) x1 (ix2 p (0 : Fin 1)) = wrap (x1 (ix2 p 0)) := by
  rw [val_main_v7_apply, val_main_v6_apply, val_main_v3_apply, val_main_v5_apply, val_main_v2_apply, val_main_v4_apply,
    val_main_c_apply, val_main_c_0_apply, val_main_v1_apply, val_main_v0_apply]
  have e : idx_main_v0 (idx_main_v1 (idx_main_v7 (ix2 p (0 : Fin 1)))) = ix2 p 0 :=
    funext fun a => Fin.ext (by match a with | ⟨0, _⟩ => exact Nat.div_one _ | ⟨1, _⟩ => rfl)
  rw [e]
  rfl

/-- The index word the second take of rows reads for new vertex p: the word idx[p, 1], wrapped. -/
theorem word1 (x1 : SI.Idx → BitVec 32) (p : Fin 122880) :
    val_main_v16 (F := Ideal) x1 (ix2 p (0 : Fin 1)) = wrap (x1 (ix2 p 1)) := by
  rw [val_main_v16_apply, val_main_v15_apply, val_main_v12_apply, val_main_v14_apply, val_main_v11_apply, val_main_v13_apply,
    val_main_c_1_apply, val_main_c_2_apply, val_main_v10_apply, val_main_v9_apply]
  have e : idx_main_v9 (idx_main_v10 (idx_main_v16 (ix2 p (0 : Fin 1)))) = ix2 p 1 :=
    funext fun a => Fin.ext (by match a with | ⟨0, _⟩ => exact Nat.div_one _ | ⟨1, _⟩ => rfl)
  rw [e]
  rfl

/-- The program's take of rows is the library's, over the same dimension numbers. -/
theorem dims_eq : gather_S40962x256_S122880x1_S122880x256_1_0_n_n_0_1_1256
    = Cert.LibGatherRows.rowDims 40962 122880 256 Facts₀.gather_S40962x256_S122880x1_S122880x256_1_0_n_n_0_1_1256_wf := by
  unfold gather_S40962x256_S122880x1_S122880x256_1_0_n_n_0_1_1256
  rfl

/-- Entry (p, k) of the first rows taken: x at the row idx[p, 0] names. -/
theorem take0 (x0 : SX.Idx → EReal) (x1 : SI.Idx → BitVec 32) (p : Fin 122880) (k : Fin 256) :
    val_main_v8 (F := Ideal) x0 x1 (ix2 p k) = x0 (ix2 (row (x1 (ix2 p 0))) k) := by
  unfold val_main_v8
  rw [dims_eq, Cert.LibGatherRows.gather_rows_apply (by decide)]
  refine congrArg (fun q : Fin 40962 => x0 (ix2 q k)) (Fin.ext ?_)
  show min (BitVec.toInt (val_main_v7 (F := Ideal) x1 (ix2 p (0 : Fin 1)))).toNat 40961 = min (wrap (x1 (ix2 p 0))).toInt.toNat 40961
  rw [word0]

/-- Entry (p, k) of the second rows taken: x at the row idx[p, 1] names. -/
theorem take1 (x0 : SX.Idx → EReal) (x1 : SI.Idx → BitVec 32) (p : Fin 122880) (k : Fin 256) :
    val_main_v17 (F := Ideal) x0 x1 (ix2 p k) = x0 (ix2 (row (x1 (ix2 p 1))) k) := by
  unfold val_main_v17
  rw [dims_eq, Cert.LibGatherRows.gather_rows_apply (by decide)]
  refine congrArg (fun q : Fin 40962 => x0 (ix2 q k)) (Fin.ext ?_)
  show min (BitVec.toInt (val_main_v16 (F := Ideal) x1 (ix2 p (0 : Fin 1)))).toNat 40961 = min (wrap (x1 (ix2 p 1))).toInt.toNat 40961
  rw [word1]

/-- Entry (p, k) of the parents' means: half the sum of the two rows taken. -/
theorem mean_apply (x0 : SX.Idx → EReal) (x1 : SI.Idx → BitVec 32) (p : Fin 122880) (k : Fin 256) :
    val_main_v20 (F := Ideal) x0 x1 (ix2 p k)
      = (x0 (ix2 (row (x1 (ix2 p 0))) k) + x0 (ix2 (row (x1 (ix2 p 1))) k)) * half := by
  rw [val_main_v20_apply, val_main_v18_apply, val_main_v19_apply, val_main_cst_apply, take0, take1]
  rfl

/-- Entry (r, k) of the 163842 rows laid end to end: the specification's `full`. -/
theorem rows_apply (x0 : SX.Idx → EReal) (x1 : SI.Idx → BitVec 32) (r : Fin 163842) (k : Fin 256) :
    val_main_v21 (F := Ideal) x0 x1 (ix2 r k) = full x0 x1 (ix2 r k) := by
  unfold val_main_v21 full
  by_cases h : r.val < 40962
  · rw [dif_pos (show ((ix2 r k : SO.Idx) 0).val < 40962 from h)]
    exact concatenate_pair_apply_left (0 : Fin 2) x0 _ _ (ix2 r k) rfl (ix2 ⟨r.val, h⟩ k)
      (fun b => by match b with | ⟨0, _⟩ => rfl | ⟨1, _⟩ => rfl)
  · rw [dif_neg (show ¬ ((ix2 r k : SO.Idx) 0).val < 40962 from h)]
    have hp : r.val - 40962 < 122880 := by have := r.isLt; omega
    have hi : ∀ b : Fin S122880x256.rank, b.cast (rfl : S122880x256.rank = S163842x256.rank) ≠ (0 : Fin 2) →
        ((ix2 (⟨r.val - 40962, hp⟩ : Fin 122880) k : S122880x256.Idx) b).val
          = ((ix2 r k : S163842x256.Idx) (b.cast rfl)).val := by
      intro b hb
      have hlt : b.val < 2 := b.isLt
      have hb1 : b.val ≠ 0 := fun h0 => hb (Fin.ext h0)
      obtain rfl : b = (⟨1, by decide⟩ : Fin 2) := Fin.ext (by show b.val = 1; omega)
      rfl
    have ha : r.val - 40962 + 40962 = r.val := by omega
    rw [concatenate_pair_apply_right (s₂ := S122880x256) (0 : Fin 2) x0 _ _ (ix2 r k) rfl rfl
      (ix2 (⟨r.val - 40962, hp⟩ : Fin 122880) k) hi ha]
    exact mean_apply x0 x1 ⟨r.val - 40962, hp⟩ k

/-- The reference's result term is the specification's `outR` of the argument arrays. -/
theorem result_eq (x0 : SX.Idx → EReal) (x1 : SI.Idx → BitVec 32) (x2 : SW.Idx → EReal) (x3 : SB.Idx → EReal) :
    val_main_v26 (F := Ideal) x0 x1 x2 x3 = outR x0 x1 x2 x3 := by
  refine funext fun (o : SO.Idx) => ?_
  obtain ⟨r, j, rfl⟩ : ∃ (r : Fin 163842) (j : Fin 256), o = ix2 r j := ⟨o 0, o 1, eq_ix2 o⟩
  rw [val_main_v26_apply, val_main_v23_apply, val_main_v25_apply, val_main_v24_apply, Ideal.addf_def]
  show _ = (∑ k : Fin 256, full x0 x1 (ix2 r k) * x2 (ix2 j k)) + x3 (ix1 j)
  congr 1
  · refine Finset.sum_congr rfl fun k _ => ?_
    rw [val_main_v22_apply]
    have el : lidx_main_v23 (ix2 r j) k = ix2 r k :=
      funext fun a => Fin.ext (by match a with | ⟨0, _⟩ => rfl | ⟨1, _⟩ => rfl)
    have er : idx_main_v22 (ridx_main_v23 (ix2 r j) k) = ix2 j k :=
      funext fun a => Fin.ext (by match a with | ⟨0, _⟩ => rfl | ⟨1, _⟩ => rfl)
    rw [el, er, rows_apply]
  · exact congrArg x3 (funext fun a => Fin.ext (by match a with | ⟨0, _⟩ => rfl))

/-- On every device, from any memory with zero counters, every weakly fair execution of the reference terminates with
    its result at `outR` of the four argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26)
        = outR (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨by rw [(h c).1, val_main_v26_eq]; exact result_eq _ _ _ _, (h c).2⟩)
    (Cert.ReferenceIdeal.Value.run (F := Ideal) m ρ)

end Cert.RefValue

end
-- ==== Proof.Law.lean ====
/-
  The algebraic law: with every entry of x, W and b a real number, mapping the coarse rows first and then halving
  the sum of two mapped rows gives the same array as averaging first and mapping all rows.

  For a coarse row r this is (L + L)·½ = L with L = Σₖ x[r,k]·W[j,k] + b[j]. For a new row with parents p and q it is
  ((Σₖ x[p,k]·W[j,k] + b[j]) + (Σₖ x[q,k]·W[j,k] + b[j]))·½ = Σₖ ((x[p,k] + x[q,k])·½)·W[j,k] + b[j],
  which is distributivity of the product over the sum. Distributivity fails on the extended reals once an entry is
  infinite: (1 + (−1))·⊤ = 0·⊤ = 0, while 1·⊤ + (−1)·⊤ = ⊤ + ⊥ = ⊥. This is why the entries are assumed real. Each entry
  is replaced by its real witness, the inclusion of the reals is pushed outward through products, sums and finite sums,
  and the identity is then one between real numbers.
-/
import proofs.«413938_j38654705664296_3_alg».proof.Proof.Spec
import Mathlib.Data.EReal.Operations
import Mathlib.Algebra.BigOperators.Ring.Finset
import Mathlib.Tactic.Ring
import Mathlib.Tactic.NormNum

noncomputable section

namespace Cert.Law

open Idealize.ShloMosaic Idealize.ShloMosaic.ValueIdx Cert.Spec
open scoped BigOperators

/-- The word 0x3F000000 denotes the real number one half. -/
theorem half_eq : Cert.Spec.half = (((1 / 2 : ℝ)) : EReal) := by
  unfold Cert.Spec.half
  simp [Ideal.ofBits, Ideal.ieee, -EReal.coe_mul]; norm_num

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Half the sum of a real with itself is that real. -/
theorem real_twice (L : ℝ) : (L + L) * (1 / 2) = L := by ring

/-- Half the sum of two affine images is the affine image of the half sum, over the reals. -/
theorem real_mean (a c w : Fin 256 → ℝ) (β : ℝ) :
    ((∑ k, a k * w k + β) + (∑ k, c k * w k + β)) * (1 / 2) = ∑ k, ((a k + c k) * (1 / 2)) * w k + β := by
  have hs : ∑ k, ((a k + c k) * (1 / 2)) * w k = (∑ k, a k * w k + ∑ k, c k * w k) * (1 / 2) := by
    rw [← Finset.sum_add_distrib, Finset.sum_mul]
    exact Finset.sum_congr rfl (fun k _ => by ring)
  rw [hs]; ring

theorem outK_eq_outR (x : Cert.Spec.SX.Idx → EReal) (idx : Cert.Spec.SI.Idx → BitVec 32)
    (W : Cert.Spec.SW.Idx → EReal) (b : Cert.Spec.SB.Idx → EReal)
    (hx : ∀ i, ∃ r : ℝ, x i = (r : EReal)) (hW : ∀ i, ∃ r : ℝ, W i = (r : EReal))
    (hb : ∀ i, ∃ r : ℝ, b i = (r : EReal)) :
    Cert.Spec.outK x idx W b = Cert.Spec.outR x idx W b := by
  choose xr hxr using hx
  choose Wr hWr using hW
  choose br hbr using hb
  -- the affine image of a row is a real number
  have hlin : ∀ (i : Fin 40962) (j : Fin 256), lin x W b i j
      = ((∑ k : Fin 256, xr (ix2 i k) * Wr (ix2 j k) + br (ix1 j) : ℝ) : EReal) := by
    intro i j
    unfold lin
    simp only [hxr, hWr, hbr]
    rw [EReal.coe_add, coe_sum]
    simp only [EReal.coe_mul]
  funext o
  obtain ⟨a, j, rfl⟩ : ∃ (a : Fin 163842) (j : Fin 256), o = ix2 a j := ⟨_, _, eq_ix2 o⟩
  by_cases h : a.val < 40962
  · -- a coarse row: the mapped row, twice, halved
    have hK : outK x idx W b (ix2 a j) = (lin x W b ⟨a.val, h⟩ j + lin x W b ⟨a.val, h⟩ j) * half := by
      unfold outK gath
      exact (dif_pos h).trans rfl
    have hR : outR x idx W b (ix2 a j) = lin x W b ⟨a.val, h⟩ j := by
      unfold outR lin
      congr 1
      refine Finset.sum_congr rfl (fun k _ => ?_)
      congr 1
      show full x idx (ix2 a k) = _
      unfold full
      exact dif_pos h
    rw [hK, hR, hlin, half_eq, ← EReal.coe_add, ← EReal.coe_mul, real_twice]
  · -- a new row: the two parents' mapped rows, halved
    obtain ⟨p, q, hK, hR⟩ : ∃ p q : Fin 40962,
        outK x idx W b (ix2 a j) = (lin x W b p j + lin x W b q j) * half ∧
        outR x idx W b (ix2 a j)
          = (∑ k : Fin 256, ((x (ix2 p k) + x (ix2 q k)) * half) * W (ix2 j k)) + b (ix1 j) := by
      refine ⟨row (idx (ix2 (newOf (ix2 a j) h) 0)), row (idx (ix2 (newOf (ix2 a j) h) 1)), ?_, ?_⟩
      · unfold outK gath
        exact (dif_neg h).trans rfl
      · unfold outR
        congr 1
        refine Finset.sum_congr rfl (fun k _ => ?_)
        congr 1
        show full x idx (ix2 a k) = _
        unfold full
        exact (dif_neg h).trans rfl
    rw [hK, hR, hlin, hlin, half_eq]
    simp only [hxr, hWr, hbr]
    simp only [← EReal.coe_add, ← EReal.coe_mul, ← coe_sum]
    rw [real_mean]

end Cert.Law

end
-- ==== Proof.PreFacts.lean ====
/-
  The precondition read back over extended reals. The printed predicate states, as one bit, that |x|, |W| and |b| are
  below +∞ at every entry and that every index word lies in [0, 40962) read signed. Each "for all" is a reduction by
  "and" from 1, which is 1 only when every element is 1; an extended real whose absolute value max(x, −x) is strictly
  below +∞ is neither +∞ nor −∞, hence a real; a signed comparison word that is 1 is the inequality of the signed values.
-/
import proofs.«413938_j38654705664296_3_alg».proof.Pre_finite_inputs
import proofs.«413938_j38654705664296_3_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real with max(x, −x) < +∞ is a real. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- An elementwise "and" of two bit arrays is 1 at an index exactly when both are. -/
theorem andi_at {s : Shape} (p q : IVec s 1) (i : s.Idx) : andi p q i = 1#1 ↔ p i = 1#1 ∧ q i = 1#1 :=
  IntOp.andi_eq_one

/-- A word that tests ≥ 0 and < 40962, both signed, has its signed value in [0, 40962). -/
theorem range_of_words (w : BitVec 32) (h0 : IntOp.cmpi .sge w 0#32 = 1#1) (h1 : IntOp.cmpi .slt w 40962#32 = 1#1) :
    0 ≤ w.toInt ∧ w.toInt < 40962 := by
  rw [IntOp.cmpi_sge] at h0
  rw [IntOp.cmpi_slt] at h1
  have z : (0#32 : BitVec 32).toInt = 0 := by decide
  have n : (40962#32 : BitVec 32).toInt = 40962 := by decide
  rw [z] at h0
  rw [n] at h1
  exact ⟨h0, h1⟩

theorem of_pre [Cert.Pre_finite_inputs.Facts]
    (x : FVec Ideal Cert.Pre_finite_inputs.S40962x256 .f32) (idx : IVec Cert.Pre_finite_inputs.S122880x2 32)
    (W : FVec Ideal Cert.Pre_finite_inputs.S256x256 .f32) (b : FVec Ideal Cert.Pre_finite_inputs.S256 .f32)
    (h : Cert.Pre_finite_inputs.fn (F := Ideal) x idx W b = fun _ => 1#1) :
    (∀ i, ∃ r : ℝ, x i = (r : EReal)) ∧ (∀ i, ∃ r : ℝ, W i = (r : EReal)) ∧ (∀ i, ∃ r : ℝ, b i = (r : EReal))
      ∧ ∀ i, 0 ≤ (idx i).toInt ∧ (idx i).toInt < 40962 := by
  have e := congrFun h ValueIdx.ix0
  dsimp only [fn, fn_part1] at e
  rw [andi_at, andi_at, andi_at] at e
  obtain ⟨⟨⟨hx, hW⟩, hb⟩, hi⟩ := e
  refine ⟨fun i => ?_, fun i => ?_, fun i => ?_, fun i => ?_⟩
  · exact real_of_abs_lt (x i) (Host.reduce_andi_all _ _ _ _ _ hx i)
  · exact real_of_abs_lt (W i) (Host.reduce_andi_all _ _ _ _ _ hW i)
  · exact real_of_abs_lt (b i) (Host.reduce_andi_all _ _ _ _ _ hb i)
  · have hq := Host.reduce_andi_all _ _ _ _ _ hi i
    rw [andi_at] at hq
    exact range_of_words (idx i) hq.1 hq.2

end Cert.PreFacts

end
-- ==== Proof.lean ====
/-
  Two programs compute, for an icosahedral unpooling followed by a linear layer, the [163842, 256] array whose
  row r is the affine image y = x·Wᵀ + b of coarse vertex r for r < 40962 and of the mean of the two parents of
  new vertex r − 40962 otherwise. The reference averages the parents' rows of x and maps all 163842 rows; the
  kernel maps the 40962 coarse rows once, in eleven blocks of 4096 rows (the last cut to two), and then takes
  half the sum of two mapped rows for every result row. Over the reals the two agree because the map is affine and
  the two weights sum to one: ((Σₖ xₚₖWⱼₖ + bⱼ) + (Σₖ x_qₖWⱼₖ + bⱼ))·½ = Σₖ ((xₚₖ + x_qₖ)·½)·Wⱼₖ + bⱼ, which
  needs every entry finite; the kernel's masked take agrees with the reference's clamped take because every parent
  index lies in 0 … 40961 (the precondition).

  The frames: the word-level kernel's by relational proof data (Proof/KernelFrame.lean); the idealized kernel's from
  its run (Proof/KRun.lean, Proof/KValue.lean); the reference's from its run. The value: the result array of the
  pallas_call is the affine image of the coarse rows (Proof/KValue.lean), the lines after it gather and halve
  (Proof/KTail.lean), the reference's term is the other arrangement (Proof/RefValue.lean), and the law joins them
  (Proof/Law.lean) under the decoded precondition (Proof/PreFacts.lean).
-/
import proofs.«413938_j38654705664296_3_alg».proof.Defs
import proofs.«413938_j38654705664296_3_alg».proof.Proof.Gen.Kernel
import proofs.«413938_j38654705664296_3_alg».proof.Proof.Gen.KernelIdeal
import proofs.«413938_j38654705664296_3_alg».proof.Proof.Gen.ReferenceIdeal
import proofs.«413938_j38654705664296_3_alg».proof.Proof.Gen.Pre_finite_inputs
import proofs.«413938_j38654705664296_3_alg».proof.Proof.KernelFrame
import proofs.«413938_j38654705664296_3_alg».proof.Proof.KValue
import proofs.«413938_j38654705664296_3_alg».proof.Proof.KTail
import proofs.«413938_j38654705664296_3_alg».proof.Proof.RefValue
import proofs.«413938_j38654705664296_3_alg».proof.Proof.Law
import proofs.«413938_j38654705664296_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments. -/
theorem frame_k : Cert.frame_Kernel := Cert.KernelFrame.frame

/-- The idealized kernel runs and leaves its arguments: its run, read at the argument arrays. -/
theorem frame_ki : Cert.frame_KernelIdeal := fun m ρ _ =>
  Cert.KernelIdeal.Gen.frame_of m ρ (Cert.KRun.dats m) (Cert.KRun.A_eq m) (Cert.KValue.run_main m ρ)

/-- The reference runs and leaves its arguments: its run with the result dropped. -/
theorem frame_r : Cert.frame_ReferenceIdeal := fun m ρ _ =>
  (θ_run Cert.ReferenceIdeal.defs _ _).mono (fun _ h c => (h c).2) (Cert.RefValue.run m ρ)

/-- The idealized kernel's run, read at its result and its arguments: the result is the gather-and-halve of the
    affine image of the coarse rows, given every parent index in range. -/
theorem kernel_value (m : (ℓ : Loc Cert.KernelIdeal.nD Cert.KernelIdeal.τ Cert.KernelIdeal.sig) → Buf (Elt Ideal) ℓ)
    (ρ : Dev Cert.KernelIdeal.nD → PrngReg)
    (hidx : ∀ (c : Dev Cert.KernelIdeal.nD) i,
      0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 40962) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v15)
          = Cert.Spec.outK (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨((h c).2 Cert.KernelIdeal.main_v15 (Pipeline.mem_restRefs_of Cert.KernelIdeal.main_v15 (by decide) (by decide))).trans
      (Cert.KTail.tail_value m (Cert.KRun.dats m) c _ (Cert.KValue.final m c) (hidx c)),
      ((h c).1 0).trans (((Cert.KRun.dats m 0 c).arrAt_in 0 rfl _).trans ((Cert.KRun.A_eq m c 0).trans (Cert.KernelIdeal.Gen.V_main_arg0 m c))),
      (((h c).2 Cert.KernelIdeal.main_arg1 (Pipeline.mem_restRefs_of Cert.KernelIdeal.main_arg1 (by decide) (by decide))).trans (Cert.KernelIdeal.Gen.W_main_arg1 m (Cert.KRun.dats m) c)),
      (((h c).2 Cert.KernelIdeal.main_arg2 (Pipeline.mem_restRefs_of Cert.KernelIdeal.main_arg2 (by decide) (by decide))).trans (Cert.KernelIdeal.Gen.W_main_arg2 m (Cert.KRun.dats m) c)),
      (((h c).2 Cert.KernelIdeal.main_arg3 (Pipeline.mem_restRefs_of Cert.KernelIdeal.main_arg3 (by decide) (by decide))).trans (Cert.KernelIdeal.Gen.W_main_arg3 m (Cert.KRun.dats m) c))⟩)
    (Cert.KValue.run_main m ρ)

theorem algebraic : Cert.algebraic_KernelIdeal_ReferenceIdeal := by
  intro m ρ m' ρ' hpre hagree
  have hP := fun c => Cert.PreFacts.of_pre _ _ _ _ (hpre c)
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact kernel_value m ρ (fun c => (hP c).2.2.2)
  · refine (θ_run Cert.ReferenceIdeal.defs _ _).mono (fun _ h c => ⟨(h c).1.trans ?_, (h c).2⟩) (Cert.RefValue.run m' ρ')
    rw [(hagree c).1, (hagree c).2.1, (hagree c).2.2.1, (hagree c).2.2.2]
    exact (Cert.Law.outK_eq_outR _ _ _ _ (hP c).1 (hP c).2.1 (hP c).2.2.1).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
